-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "c_16_49" .f32 0x3EA72F05#32 ((16 / 49 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x128 : Shape := ⟨2, ![512, 128]⟩
abbrev S20000x128 : Shape := ⟨2, ![20000, 128]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S20000x128 : S_.BroadcastsInDim S20000x128 (![] : Fin 0 → Fin S20000x128.rank)
  reducesTo_S20000x128_S_d0_1 : S20000x128.ReducesTo [0, 1] S_

variable [Facts]

def fn_part1 {F : FTy → Type} [FloatOps F] (main_arg4 : FVec F S20000x128 .f32) (main_arg5 : FVec F S20000x128 .f32) (main_arg6 : FVec F S20000x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S20000x128 .f32 := Host.absf main_arg4
  let main_cst_6 : FVec F S_ .f32 := constant S_ .f32 0x7F800000#32
  let main_v20 : FVec F S20000x128 .f32 := broadcastInDim S20000x128 ![] bcast_S_S20000x128 main_cst_6
  let main_v21 : IVec S20000x128 1 := cmpf .olt main_v19 main_v20
  let main_c_7 : IVec S_ 1 := constantI S_ 1 1#1
  let main_v22 : IVec S_ 1 := (fun x v => Host.reduce IntOp.andi x v reducesTo_S20000x128_S_d0_1 h_S_) main_v21 main_c_7
  let main_v23 : IVec S_ 1 := andi main_v18 main_v22
  let main_v24 : FVec F S20000x128 .f32 := Host.absf main_arg5
  let main_cst_8 : FVec F S_ .f32 := constant S_ .f32 0x7F800000#32
  let main_v25 : FVec F S20000x128 .f32 := broadcastInDim S20000x128 ![] bcast_S_S20000x128 main_cst_8
  let main_v26 : IVec S20000x128 1 := cmpf .olt main_v24 main_v25
  let main_c_9 : IVec S_ 1 := constantI S_ 1 1#1
  let main_v27 : IVec S_ 1 := (fun x v => Host.reduce IntOp.andi x v reducesTo_S20000x128_S_d0_1 h_S_) main_v26 main_c_9
  let main_v28 : IVec S_ 1 := andi main_v23 main_v27
  let main_v29 : FVec F S20000x128 .f32 := Host.absf main_arg6
  let main_cst_10 : FVec F S_ .f32 := constant S_ .f32 0x7F800000#32
  let main_v30 : FVec F S20000x128 .f32 := broadcastInDim S20000x128 ![] bcast_S_S20000x128 main_cst_10
  let main_v31 : IVec S20000x128 1 := cmpf .olt main_v29 main_v30
  let main_c_11 : IVec S_ 1 := constantI S_ 1 1#1
  let main_v32 : IVec S_ 1 := (fun x v => Host.reduce IntOp.andi x v reducesTo_S20000x128_S_d0_1 h_S_) main_v31 main_c_11
  let main_v33 : IVec S_ 1 := andi main_v28 main_v32
  main_v33

def fn {F : FTy → Type} [FloatOps F] (main_arg0 : FVec F S1024x512 .f32) (main_arg1 : FVec F S512x128 .f32) (main_arg2 : FVec F S512x128 .f32) (main_arg3 : FVec F S512x128 .f32) (main_arg4 : FVec F S20000x128 .f32) (main_arg5 : FVec F S20000x128 .f32) (main_arg6 : FVec F S20000x128 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S1024x512 : Shape := ⟨2, ![1024, 512]⟩
abbrev S512x128 : Shape := ⟨2, ![512, 128]⟩
abbrev S20000x128 : Shape := ⟨2, ![20000, 128]⟩
abbrev S1024x128 : Shape := ⟨2, ![1024, 128]⟩
abbrev S1024x20000 : Shape := ⟨2, ![1024, 20000]⟩
abbrev S1024 : Shape := ⟨1, ![1024]⟩
abbrev S1024x1 : Shape := ⟨2, ![1024, 1]⟩
abbrev S2048x128 : Shape := ⟨2, ![2048, 128]⟩
abbrev S1024x2048 : Shape := ⟨2, ![1024, 2048]⟩
abbrev S2048 : Shape := ⟨1, ![2048]⟩
abbrev S1x2048 : Shape := ⟨2, ![1, 2048]⟩
abbrev S2048x1 : Shape := ⟨2, ![2048, 1]⟩

abbrev nBuf : Space → Nat
  | .hbm => 11
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S20000x128, .f32⟩
  | .hbm, ⟨5, _⟩ => ⟨S20000x128, .f32⟩
  | .hbm, ⟨6, _⟩ => ⟨S20000x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x20000, .f32⟩
  | .local _ .vmem, ⟨0, _⟩ => ⟨S1024x512, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1024x2048, .f32⟩
  | .local _ .vmem, ⟨17, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0_0 : Ref sig .tc := ⟨.hbm, 7, rfl⟩
abbrev main_call0_v0_1 : Ref sig .tc := ⟨.hbm, 8, rfl⟩
abbrev main_call0_v0_2 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  shapeCasts_S2048_S2048x1 : S2048.ShapeCasts S2048x1
  broadcasts_S2048x1_S2048x128 : S2048x1.Broadcasts S2048x128
  inb_S1024x2048_S1024x2048_0_0 : ∀ a, (![0, 0] : Fin 2 → Nat) a + S1024x2048.size a ≤ S1024x2048.size a
  h_S1024x2048 : 0 < S1024x2048.numel
  dot_S1024x512_S512x128_S1024x128_1_0_0_1_n_n_wf : DotDims.WF S1024x512 S512x128 S1024x128 [1] [0] [0] [1] [] []
  dot_S1024x128_S2048x128_S1024x2048_1_1_0_0_n_n_wf : DotDims.WF S1024x128 S2048x128 S1024x2048 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x128.size a < S20000x128.size a
  hwx1_3 : ∀ i : grid1.Coords, EltTy.bits .f32 = 32 ∨ (Rect.unit (s := S20000x128) (fun a => cc1_transform_3 i a * S2048x128.size a) (fun a => (Pipeline.Clip.of (cc1_transform_3 i a) (S2048x128.size a) (S20000x128.size a)).extent (S2048x128.size a)) fun a => Pipeline.Clip.inb (Pipeline.Clip.ok_of (hstart1_3 i a))).WholeWords (EltTy.packing .f32)
  hwxs1_3 : ∀ i : grid1.Coords, EltTy.bits .f32 = 32 ∨ (Rect.unit (s := S2048x128) (fun _ => 0) (fun a => (Pipeline.Clip.of (cc1_transform_3 i a) (S2048x128.size a) (S20000x128.size a)).extent (S2048x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S2048x128.size a < S20000x128.size a
  hwx1_4 : ∀ i : grid1.Coords, EltTy.bits .f32 = 32 ∨ (Rect.unit (s := S20000x128) (fun a => cc1_transform_4 i a * S2048x128.size a) (fun a => (Pipeline.Clip.of (cc1_transform_4 i a) (S2048x128.size a) (S20000x128.size a)).extent (S2048x128.size a)) fun a => Pipeline.Clip.inb (Pipeline.Clip.ok_of (hstart1_4 i a))).WholeWords (EltTy.packing .f32)
  hwxs1_4 : ∀ i : grid1.Coords, EltTy.bits .f32 = 32 ∨ (Rect.unit (s := S2048x128) (fun _ => 0) (fun a => (Pipeline.Clip.of (cc1_transform_4 i a) (S2048x128.size a) (S20000x128.size a)).extent (S2048x128.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S2048x128.size a < S20000x128.size a
  hwx1_5 : ∀ i : grid1.Coords, EltTy.bits .f32 = 32 ∨ (Rect.unit (s := S20000x128) (fun a => cc1_transform_5 i a * S2048x128.size a) (fun a => (Pipeline.Clip.of (cc1_transform_5 i a) (S2048x128.size a) (S20000x128.size a)).extent (S2048x128.size a)) fun a => Pipeline.Clip.inb (Pipeline.Clip.ok_of (hstart1_5 i a))).WholeWords (EltTy.packing .f32)
  hwxs1_5 : ∀ i : grid1.Coords, EltTy.bits .f32 = 32 ∨ (Rect.unit (s := S2048x128) (fun _ => 0) (fun a => (Pipeline.Clip.of (cc1_transform_5 i a) (S2048x128.size a) (S20000x128.size a)).extent (S2048x128.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S1024x2048.size a < S1024x20000.size a
  hwx1_6 : ∀ i : grid1.Coords, EltTy.bits .f32 = 32 ∨ (Rect.unit (s := S1024x20000) (fun a => cc1_transform_6 i a * S1024x2048.size a) (fun a => (Pipeline.Clip.of (cc1_transform_6 i a) (S1024x2048.size a) (S1024x20000.size a)).extent (S1024x2048.size a)) fun a => Pipeline.Clip.inb (Pipeline.Clip.ok_of (hstart1_6 i a))).WholeWords (EltTy.packing .f32)
  hwxs1_6 : ∀ i : grid1.Coords, EltTy.bits .f32 = 32 ∨ (Rect.unit (s := S1024x2048) (fun _ => 0) (fun a => (Pipeline.Clip.of (cc1_transform_6 i a) (S1024x2048.size a) (S1024x20000.size a)).extent (S1024x2048.size a)) fun a => (Nat.zero_add _).trans_le (Pipeline.Clip.extent_le (Pipeline.Clip.ok_of (hstart1_6 i a)))).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_call0_v0_0) true false (stage0_4 0) (sem0_4 0) (Memref.isWhole_whole _) (hstage0_4 0)

abbrev win0_5 : Pipeline.Window sig grid0 :=
  Pipeline.Window.whole (Memref.whole main_call0_v0_1) true false (stage0_5 0) (sem0_5 0) (Memref.isWhole_whole _) (hstage0_5 0)

abbrev win0_6 : Pipeline.Window sig grid0 :=
  Pipeline.Window.whole (Memref.whole main_call0_v0_2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v0_0) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_2) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_arg4) S2048x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_arg5) S2048x128.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_arg6) S2048x128.size cc1_transform_5 reads1_5 false false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_v0) S1024x2048.size cc1_transform_6 reads1_6 true false 2 stage1_6 sem1_6
    hrank1 hreads1_6 hstart1_6 nbuf1_6 (Memref.isWhole_whole _) hwx1_6 hwxs1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x512 : Shape := ⟨2, ![1024, 512]⟩
abbrev S512x128 : Shape := ⟨2, ![512, 128]⟩
abbrev S20000x128 : Shape := ⟨2, ![20000, 128]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S20000 : Shape := ⟨1, ![20000]⟩
abbrev S1x20000 : Shape := ⟨2, ![1, 20000]⟩
abbrev S1024x20000 : Shape := ⟨2, ![1024, 20000]⟩
abbrev S128x20000 : Shape := ⟨2, ![128, 20000]⟩
abbrev S20000x1 : Shape := ⟨2, ![20000, 1]⟩
abbrev S1x1024x20000 : Shape := ⟨3, ![1, 1024, 20000]⟩
abbrev S3x1024x20000 : Shape := ⟨3, ![3, 1024, 20000]⟩

abbrev nBuf : Space → Nat
  | .hbm => 101
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S20000x128, .f32⟩
  | .hbm, ⟨5, _⟩ => ⟨S20000x128, .f32⟩
  | .hbm, ⟨6, _⟩ => ⟨S20000x128, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S20000x128, .f32⟩
  | .hbm, ⟨13, _⟩ => ⟨S_, .f32⟩
  | .hbm, ⟨14, _⟩ => ⟨S20000, .f32⟩
  | .hbm, ⟨15, _⟩ => ⟨S1x20000, .f32⟩
  | .hbm, ⟨16, _⟩ => ⟨S1024x20000, .f32⟩
  | .hbm, ⟨17, _⟩ => ⟨S1024x20000, .f32⟩
  | .hbm, ⟨18, _⟩ => ⟨S1024x20000, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S128x20000, .f32⟩
  | .hbm, ⟨23, _⟩ => ⟨S1024x20000, .f32⟩
  | .hbm, ⟨24, _⟩ => ⟨S1024x20000, .f32⟩
  | .hbm, ⟨25, _⟩ => ⟨S_, .f32⟩
  | .hbm, ⟨26, _⟩ => ⟨S1024x20000, .f32⟩
  | .hbm, ⟨27, _⟩ => ⟨S1024x20000, .f32⟩
  | .hbm, ⟨28, _⟩ => ⟨S_, .f32⟩
  | .hbm, ⟨29, _⟩ => ⟨S1024x20000, .f32⟩
  | .hbm, ⟨30, _⟩ => ⟨S1024x20000, .f32⟩
  | .hbm, ⟨31, _⟩ => ⟨S1024x20000, .f32⟩
  | .hbm, ⟨32, _⟩ => ⟨S_, .f32⟩
  | .hbm, ⟨33, _⟩ => ⟨S1024x20000, .f32⟩
  | .hbm, ⟨34, _⟩ => ⟨S1024x20000, .f32⟩
  | .hbm, ⟨35, _⟩ => ⟨S1024x20000, .f32⟩
  | .hbm, ⟨36, _⟩ => ⟨S1024x20000, .f32⟩
  | .hbm, ⟨37, _⟩ => ⟨S1024x20000, .f32⟩
  | .hbm, ⟨38, _⟩ => ⟨S1024x20000, .f32⟩
  | .hbm, ⟨39, _⟩ => ⟨S_, .f32⟩
  | .hbm, ⟨40, _⟩ => ⟨S1024x20000, .f32⟩
  | .hbm, ⟨41, _⟩ => ⟨S1024x20000, .i1⟩
  | .hbm, ⟨42, _⟩ => ⟨S_, .f32⟩
  | .hbm, ⟨43, _⟩ => ⟨S_, .f32⟩
  | .hbm, ⟨44, _⟩ => ⟨S1024x20000, .f32⟩
  | .hbm, ⟨45, _⟩ => ⟨S1024x20000, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S1024x128, .f32⟩
  | .hbm, ⟨56, _⟩ => ⟨S1024x128, .f32⟩
  | .hbm, ⟨57, _⟩ => ⟨S20000x128, .f32⟩
  | .hbm, ⟨58, _⟩ => ⟨S_, .f32⟩
  | .hbm, ⟨59, _⟩ => ⟨S20000, .f32⟩
  | .hbm, ⟨60, _⟩ => ⟨S20000x1, .f32⟩
  | .hbm, ⟨61, _⟩ => ⟨S20000x1, .f32⟩
  | .hbm, ⟨62, _⟩ => ⟨S_, .f32⟩
  | .hbm, ⟨63, _⟩ => ⟨S20000x1, .f32⟩
  | .hbm, ⟨64, _⟩ => ⟨S20000x1, .f32⟩
  | .hbm, ⟨65, _⟩ => ⟨S20000x128, .f32⟩
  | .hbm, ⟨66, _⟩ => ⟨S20000x128, .f32⟩
  | .hbm, ⟨67, _⟩ => ⟨S128x20000, .f32⟩
  | .hbm, ⟨68, _⟩ => ⟨S1024x20000, .f32⟩
  | .hbm, ⟨69, _⟩ => ⟨S1024x128, .f32⟩
  | .hbm, ⟨70, _⟩ => ⟨S1024x128, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S1024x1, .f32⟩
  | .hbm, ⟨75, _⟩ => ⟨S_, .f32⟩
  | .hbm, ⟨76, _⟩ => ⟨S1024x1, .f32⟩
  | .hbm, ⟨77, _⟩ => ⟨S1024x1, .f32⟩
  | .hbm, ⟨78, _⟩ => ⟨S1024x128, .f32⟩
  | .hbm, ⟨79, _⟩ => ⟨S1024x128, .f32⟩
  | .hbm, ⟨80, _⟩ => ⟨S20000x128, .f32⟩
  | .hbm, ⟨81, _⟩ => ⟨S_, .f32⟩
  | .hbm, ⟨82, _⟩ => ⟨S20000, .f32⟩
  | .hbm, ⟨83, _⟩ => ⟨S20000x1, .f32⟩
  | .hbm, ⟨84, _⟩ => ⟨S20000x1, .f32⟩
  | .hbm, ⟨85, _⟩ => ⟨S_, .f32⟩
  | .hbm, ⟨86, _⟩ => ⟨S20000x1, .f32⟩
  | .hbm, ⟨87, _⟩ => ⟨S20000x1, .f32⟩
  | .hbm, ⟨88, _⟩ => ⟨S20000x128, .f32⟩
  | .hbm, ⟨89, _⟩ => ⟨S20000x128, .f32⟩
  | .hbm, ⟨90, _⟩ => ⟨S128x20000, .f32⟩
  | .hbm, ⟨91, _⟩ => ⟨S1024x20000, .f32⟩
  | .hbm, ⟨92, _⟩ => ⟨S1x1024x20000, .f32⟩
  | .hbm, ⟨93, _⟩ => ⟨S1x1024x20000, .f32⟩
  | .hbm, ⟨94, _⟩ => ⟨S1x1024x20000, .f32⟩
  | .hbm, ⟨95, _⟩ => ⟨S3x1024x20000, .f32⟩
  | .hbm, ⟨96, _⟩ => ⟨S_, .f32⟩
  | .hbm, ⟨97, _⟩ => ⟨S1024x20000, .f32⟩
  | .hbm, ⟨98, _⟩ => ⟨S_, .f32⟩
  | .hbm, ⟨99, _⟩ => ⟨S1024x20000, .f32⟩
  | .hbm, ⟨100, _⟩ => ⟨S1024x20000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call2_v0 : Ref sig .tc := ⟨.hbm, 57, rfl⟩
abbrev main_call2_cst : Ref sig .tc := ⟨.hbm, 58, rfl⟩
abbrev main_call2_v1 : Ref sig .tc := ⟨.hbm, 59, rfl⟩
abbrev main_call2_v2 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_v0 : Ref sig .tc := ⟨.hbm, 70, rfl⟩
abbrev main_call3_cst : Ref sig .tc := ⟨.hbm, 71, rfl⟩
abbrev main_call3_v1 : Ref sig .tc := ⟨.hbm, 72, rfl⟩
abbrev main_call3_v2 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_call4_v2 : Ref sig .tc := ⟨.hbm, 83, rfl⟩
abbrev main_v48 : Ref sig .tc := ⟨.hbm, 84, rfl⟩
abbrev main_cst_10 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_cst_12 : Ref sig .tc := ⟨.hbm, 98, rfl⟩
abbrev main_v60 : Ref sig .tc := ⟨.hbm, 99, rfl⟩
abbrev main_v61 : Ref sig .tc := ⟨.hbm, 100, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S20000x128_S20000_d1 : S20000x128.ReducesTo [1] S20000
  bcast_S20000_S1x20000_1 : S20000.BroadcastsInDim S1x20000 (![1] : Fin 1 → Fin S1x20000.rank)
  bcast_S1024x1_S1024x20000_0_1 : S1024x1.BroadcastsInDim S1024x20000 (![0, 1] : Fin 2 → Fin S1024x20000.rank)
  bcast_S1x20000_S1024x20000_0_1 : S1x20000.BroadcastsInDim S1024x20000 (![0, 1] : Fin 2 → Fin S1024x20000.rank)
  bcast_S_S1024x128 : S_.BroadcastsInDim S1024x128 (![] : Fin 0 → Fin S1024x128.rank)
  transposes_S20000x128_S128x20000_1_0 : S20000x128.Transposes [1, 0] S128x20000
  bcast_S_S1024x20000 : S_.BroadcastsInDim S1024x20000 (![] : Fin 0 → Fin S1024x20000.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S1024x20000_S1x1024x20000_1_2 : S1024x20000.BroadcastsInDim S1x1024x20000 (![1, 2] : Fin 2 → Fin S1x1024x20000.rank)
  concatenates_S1x1024x20000_S1x1024x20000_S1x1024x20000_S3x1024x20000_d0 : Shape.Concatenates [S1x1024x20000, S1x1024x20000, S1x1024x20000] S3x1024x20000 0
  reducesTo_S3x1024x20000_S1024x20000_d0 : S3x1024x20000.ReducesTo [0] S1024x20000
  dot_S1024x512_S512x128_S1024x128_1_0_0_1_n_n_wf : DotDims.WF S1024x512 S512x128 S1024x128 [1] [0] [0] [1] [] []
  dot_S1024x128_S128x20000_S1024x20000_1_0_0_1_n_n_wf : DotDims.WF S1024x128 S128x20000 S1024x20000 [1] [0] [0] [1] [] []

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x20000_S1024x20000_1_0_0_1_n_n : DotDims S1024x128 S128x20000 S1024x20000 where
  lhsContracting := [1]
  rhsContracting := [0]
  lhsNonContracting := [0]
  rhsNonContracting := [1]
  lhsBatch := []
  rhsBatch := []
  wf := dot_S1024x128_S128x20000_S1024x20000_1_0_0_1_n_n_wf

class Facts : Prop extends Facts₀ where

variable [Facts]
-- ==== Proof.K.Bodies.lean ====
/-
  The two kernel bodies as triples of separation logic, at any float instance.

  The first kernel loads the query features and the three weight matrices whole and stores three whole blocks: the
  head-1 embedding and the two row-normalised embeddings. The second loads the three embedding blocks and one block
  of each gallery whole and stores the whole block of scores. Each store's value is the skeleton's payload of the
  loaded values, so each output buffer ends at that payload and every input buffer is as it was.
-/
import proofs.«153459_g75874892251866_cont_9to1_m_1391_4_alg».proof.Proof.Gen.Kernel.Launch
import proofs.«153459_g75874892251866_cont_9to1_m_1391_4_alg».proof.Proof.Gen.Kernel.Skeleton
import proofs.«153459_g75874892251866_cont_9to1_m_1391_4_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the rectangle of the whole shape at zero offsets, over any prior contents, reads back as its
    payload: the rectangle covers every index, and the canon of one covering piece is the piece's payload. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

set_option maxHeartbeats 1000000 in
/-- The first kernel's body: from the four inputs' buffers at `x0 … x3` and the three outputs' at anything, it runs to
    the inputs' as they were and the outputs' at the payloads of the inputs. -/
theorem sound_kernel0 (c : Dev nD) (E : Set ℕ)
    (arg0 : Memref sig .tc .vmem S1024x512 .f32) (harg0 : arg0.IsWhole) (arg1 : Memref sig .tc .vmem S512x128 .f32) (harg1 : arg1.IsWhole)
    (arg2 : Memref sig .tc .vmem S512x128 .f32) (harg2 : arg2.IsWhole) (arg3 : Memref sig .tc .vmem S512x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole)
    (x0 : Vec F S1024x512 .f32) (x1 x2 x3 : Vec F S512x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
              ∗ owns (c : Thread nD τ) arg3 fullShare x3
              ∗ owns (c : Thread nD τ) arg4 fullShare (k0_pay1 x0 x1) ∗ owns (c : Thread nD τ) arg5 fullShare (k0_pay2 x0 x2)
              ∗ owns (c : Thread nD τ) arg6 fullShare (k0_pay3 x0 x3)) -∗ K ⟨⟩))
      ⊢ wp frame (wpE (defs₀ (F := F)) Variants.none c none) E
          (cc0__embed_kernel arg0 harg0 arg1 harg1 arg2 harg2 arg3 harg3 arg4 harg4 arg5 harg5 arg6 harg6) K := by
  have hz : (![0, 0] : Fin 2 → Nat) = fun _ => 0 := funext fun a => by fin_cases a <;> rfl
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_whole _ _ hz _ _).trans ?_
    exact congrArg₂ k0_pay1 (View.ld_unit_zero (S := S1024x512) hz _ _) (View.ld_unit_zero (S := S512x128) hz _ _)
  isplitl [H5]
  · iexists _; isplitr
    swap; · iexact H5
    ipureintro
    refine (read_store_whole _ _ hz _ _).trans ?_
    exact congrArg₂ k0_pay2 (View.ld_unit_zero (S := S1024x512) hz _ _) (View.ld_unit_zero (S := S512x128) hz _ _)
  iexists _; isplitr
  swap; · iexact H6
  ipureintro
  refine (read_store_whole _ _ hz _ _).trans ?_
  exact congrArg₂ k0_pay3 (View.ld_unit_zero (S := S1024x512) hz _ _) (View.ld_unit_zero (S := S512x128) hz _ _)

/-- The scores' payload at equal arguments. -/
theorem k1_pay1_congr {a a' : FVec F S1024x2048 .f32} {b b' : Vec F S2048x128 .f32} {c c' : FVec F S2048x128 .f32}
    {d d' : Vec F S1024x128 .f32} {e e' : Vec F S2048x128 .f32} {g g' : Vec F S1024x128 .f32}
    (ha : a = a') (hb : b = b') (hc : c = c') (hd : d = d') (he : e = e') (hg : g = g') :
    k1_pay1 a b c d e g = k1_pay1 a' b' c' d' e' g' := by
  subst ha; subst hb; subst hc; subst hd; subst he; subst hg; rfl

set_option maxHeartbeats 1000000 in
/-- The second kernel's body at any grid coordinates: from the six inputs' buffers at `X0 … X5` and the output's at
    anything, it runs to the inputs' as they were and the output's at the payload of the inputs. -/
theorem sound_kernel1 (c : Dev nD) (E : Set ℕ) (i : grid1.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S1024x2048 .f32) (harg7 : arg7.IsWhole)
    (X0 X1 X2 : Vec F S1024x128 .f32) (X3 X4 X5 : Vec F S2048x128 .f32) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ owns (c : Thread nD τ) arg6 fullShare X5
        ∗ (∃ d, owns (c : Thread nD τ) arg7 fullShare d)
        ∗ (iprop(owns (c : Thread nD τ) arg1 fullShare X0 ∗ owns (c : Thread nD τ) arg2 fullShare X1 ∗ owns (c : Thread nD τ) arg3 fullShare X2
              ∗ owns (c : Thread nD τ) arg4 fullShare X3 ∗ owns (c : Thread nD τ) arg5 fullShare X4 ∗ owns (c : Thread nD τ) arg6 fullShare X5
              ∗ owns (c : Thread nD τ) arg7 fullShare (k1_pay1 (k1_pay2 X0 X3) X4 (k1_pay3 X4) X1 X5 X2)) -∗ K ⟨⟩))
      ⊢ wp frame (wpE (defs₀ (F := F)) Variants.none c none) E
          (cc1__main_kernel i arg1 harg1 arg2 harg2 arg3 harg3 arg4 harg4 arg5 harg5 arg6 harg6 arg7 harg7) K := by
  have hz : (![0, 0] : Fin 2 → Nat) = fun _ => 0 := funext fun a => by fin_cases a <;> rfl
  simp only [cc1__main_kernel_eq_skeleton]; unfold cc1__main_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_store_whole _ _ hz _ _).trans ?_
  -- each whole-buffer load reads its buffer's contents
  have e1 : View.ld (View.read (Elt F) arg1.view f1) (Rect.unit (s := S1024x128) ![0, 0] S1024x128.size inb_S1024x128_S1024x128_0_0)
      = View.read (Elt F) arg1.view f1 := View.ld_unit_zero (S := S1024x128) hz _ _
  have e2 : View.ld (View.read (Elt F) arg2.view f2) (Rect.unit (s := S1024x128) ![0, 0] S1024x128.size inb_S1024x128_S1024x128_0_0)
      = View.read (Elt F) arg2.view f2 := View.ld_unit_zero (S := S1024x128) hz _ _
  have e3 : View.ld (View.read (Elt F) arg3.view f3) (Rect.unit (s := S1024x128) ![0, 0] S1024x128.size inb_S1024x128_S1024x128_0_0)
      = View.read (Elt F) arg3.view f3 := View.ld_unit_zero (S := S1024x128) hz _ _
  have e4 : View.ld (View.read (Elt F) arg4.view f4) (Rect.unit (s := S2048x128) ![0, 0] S2048x128.size inb_S2048x128_S2048x128_0_0)
      = View.read (Elt F) arg4.view f4 := View.ld_unit_zero (S := S2048x128) hz _ _
  have e5 : View.ld (View.read (Elt F) arg5.view f5) (Rect.unit (s := S2048x128) ![0, 0] S2048x128.size inb_S2048x128_S2048x128_0_0)
      = View.read (Elt F) arg5.view f5 := View.ld_unit_zero (S := S2048x128) hz _ _
  have e6 : View.ld (View.read (Elt F) arg6.view f6) (Rect.unit (s := S2048x128) ![0, 0] S2048x128.size inb_S2048x128_S2048x128_0_0)
      = View.read (Elt F) arg6.view f6 := View.ld_unit_zero (S := S2048x128) hz _ _
  exact k1_pay1_congr (congrArg₂ k1_pay2 e1 e4) e5 (congrArg k1_pay3 e5) e2 e6 e3

end Cert.Kernel.Hand

end
-- ==== Proof.K.Region0.lean ====
/-
  The first pallas_call (no grid: one point) as a pipeline region, at any float instance.

  Its four input windows are the whole arrays `x`, `W1`, `W2`, `W3`; its three output windows the whole arrays that hold
  the head-1 embedding and the two row-normalised embeddings. After the body each input's staging buffer still holds
  its array and each output's holds the body's payload of the inputs, which the write-back then copies to the array.
-/
import proofs.«153459_g75874892251866_cont_9to1_m_1391_4_alg».proof.Proof.Gen.Kernel.Launch
import proofs.«153459_g75874892251866_cont_9to1_m_1391_4_alg».proof.Proof.Gen.Kernel.Skeleton
import proofs.«153459_g75874892251866_cont_9to1_m_1391_4_alg».proof.Proof.Gen.Kernel.Points
import proofs.«153459_g75874892251866_cont_9to1_m_1391_4_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place: the window is whole, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s
    and whose body leaves the block in place: the window is whole, uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s
    and whose body leaves the block in place: the window is whole, uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose array is `V`'s
    and whose body leaves the block in place: the window is whole, uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`: the arrays as the region finds them; after the body each input's
    buffer at its block and each output's at the payload of the input blocks; the class invariant (the scoped rest and
    the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t)
    | ⟨5, _⟩ => k0_pay2 (iblk0 V c 0 t) (iblk0 V c 2 t)
    | ⟨6, _⟩ => k0_pay3 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (iblk0 V c 0 t) (iblk0 V c 1 t) := by dsimp only [dat0]
theorem after0_5 (c : Dev nD) (t : Fin cfg0.N) : (dat0 V c).after 5 t = k0_pay2 (iblk0 V c 0 t) (iblk0 V c 2 t) := by dsimp only [dat0]
theorem after0_6 (c : Dev nD) (t : Fin cfg0.N) : (dat0 V c).after 6 t = k0_pay3 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/-
  The second pallas_call (a grid of ten points over gallery blocks of 2048 rows) as a pipeline region, at any float
  instance.

  Windows 0, 1, 2 are the whole embedding arrays (fetched once). Windows 3, 4, 5 are the galleries in blocks of 2048
  rows and window 6 the scores in blocks of 2048 columns: 10 · 2048 = 20480 > 20000, so the LAST block overhangs its
  array by 480 rows (columns). A fetch of an overhanging block fills only the rows inside the array; the rest of the
  staging buffer holds words nothing names, and a write-back copies only the columns inside the array. The body
  computes column `j` of the score block from row `j` of each gallery block alone, so the unnamed rows reach only
  columns that are never written back.
-/
import proofs.«153459_g75874892251866_cont_9to1_m_1391_4_alg».proof.Proof.Gen.Kernel.Launch
import proofs.«153459_g75874892251866_cont_9to1_m_1391_4_alg».proof.Proof.Gen.Kernel.Skeleton
import proofs.«153459_g75874892251866_cont_9to1_m_1391_4_alg».proof.Proof.Gen.Kernel.Points
import proofs.«153459_g75874892251866_cont_9to1_m_1391_4_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero word, the filler this proof picks for the part of a staging buffer no transfer moves. -/
abbrev zw : Elt F .f32 := Scalar.ofBits .f32 0#32

/-- A gallery window's staging buffer once the fetch at `t` has landed on contents `d`: the block's rows inside the
    array, `d` on the rows past the array's end (none but at the last point). -/
def fblk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- The score block the body stores at point `t` when the gallery buffers' unnamed rows hold `d3`, `d4`, `d5`. -/
def outblk1 (c : Dev nD) (t : Fin cfg1.N) (d3 d4 d5 : S2048x128.Idx → Elt F .f32) : Vec F S1024x2048 .f32 :=
  k1_pay1 (k1_pay2 (iblk1 V c 0 t) (fblk1 V c 3 t d3)) (fblk1 V c 4 t d4) (k1_pay3 (fblk1 V c 4 t d4))
    (iblk1 V c 1 t) (fblk1 V c 5 t d5) (iblk1 V c 2 t)

/-- Input window 0 (a whole array, fetched at the first point only, its block index never moving): its staging buffer holds
    the array at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (a whole array, fetched at the first point only, its block index never moving): its staging buffer holds
    the array at every point, for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (a whole array, fetched at the first point only, its block index never moving): its staging buffer holds
    the array at every point, for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body the embedding
    windows' buffers at their arrays, the gallery windows' at their blocks (the unnamed rows filled with the zero word:
    nothing reads this choice), the score window's at the block computed from those; the class invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fblk1 V c 3 t (fun _ => zw)
    | ⟨4, _⟩ => fblk1 V c 4 t (fun _ => zw)
    | ⟨5, _⟩ => fblk1 V c 5 t (fun _ => zw)
    | ⟨6, _⟩ => outblk1 V c t (fun _ => zw) (fun _ => zw) (fun _ => zw)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fblk1 V c 3 t (fun _ => zw) := by dsimp only [dat1]
theorem after1_4 (c : Dev nD) (t : Fin cfg1.N) : (dat1 V c).after 4 t = fblk1 V c 4 t (fun _ => zw) := by dsimp only [dat1]
theorem after1_5 (c : Dev nD) (t : Fin cfg1.N) : (dat1 V c).after 5 t = fblk1 V c 5 t (fun _ => zw) := by dsimp only [dat1]
theorem after1_6 (c : Dev nD) (t : Fin cfg1.N) :
    (dat1 V c).after 6 t = outblk1 V c t (fun _ => zw) (fun _ => zw) (fun _ => zw) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- A gallery window is fetched at every point: its buffer holds the block where the fetch filled it, `d` elsewhere. -/
theorem before1_3 (c : Dev nD) (t : Fin cfg1.N) (d) : (dat1 V c).before 3 t d = fblk1 V c 3 t d := by
  unfold Dat.before; rw [if_pos (fetch1_3 t)]; rfl
theorem before1_4 (c : Dev nD) (t : Fin cfg1.N) (d) : (dat1 V c).before 4 t d = fblk1 V c 4 t d := by
  unfold Dat.before; rw [if_pos (fetch1_4 t)]; rfl
theorem before1_5 (c : Dev nD) (t : Fin cfg1.N) (d) : (dat1 V c).before 5 t d = fblk1 V c 5 t d := by
  unfold Dat.before; rw [if_pos (fetch1_5 t)]; rfl
/-- The score window is an output: no point fetches it. -/
theorem fetch1_6 : ∀ t : Fin cfg1.N, (cfg1.win 6).fetch t = false :=
  (by decide +kernel : ∀ t : Fin grid1.N, win1_6.fetch t = false)

/-- The score window is written back at every point: the body finds its buffer at contents nothing names. -/
theorem before1_6 (c : Dev nD) (t : Fin cfg1.N) (d) : (dat1 V c).before 6 t d = d := by
  by_cases h0 : t.val = 0
  · unfold Dat.before
    rw [if_neg (by rw [fetch1_6 t]; exact Bool.false_ne_true), if_pos h0]
  · rw [Dat.before_of_pos _ _ _ h0 (fetch1_6 t), if_pos (flush1_6 _)]

/-- THE BODY'S STEP at point `t`, with the unnamed rows made explicit: from the invariant, the dues and the seven current
    buffers as the pipeline hands them over, the body runs to the invariant and dues of the next point, the embedding
    buffers at their arrays, and — for the contents `d3 d4 d5` the gallery buffers held past the array's end — the
    gallery buffers unchanged and the score buffer at the block computed from them. -/
theorem body1_step (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ X, owns (c : Thread nD τ) (st1_6 t) fullShare X))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ ∃ d3 d4 d5, iprop(owns (c : Thread nD τ) (st1_3 t) fullShare (fblk1 V c 3 t d3)
              ∗ owns (c : Thread nD τ) (st1_4 t) fullShare (fblk1 V c 4 t d4)
              ∗ owns (c : Thread nD τ) (st1_5 t) fullShare (fblk1 V c 5 t d5)
              ∗ owns (c : Thread nD τ) (st1_6 t) fullShare (outblk1 V c t d3 d4 d5)))) := by
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, H6⟩
  unfold bodyAt1
  iapply (sound_kernel1 c Set.univ (grid1.coords t) _ _ _ _ _ _ _ _ _ _ _ _ _ _
    (iblk1 V c 0 t) (iblk1 V c 1 t) (iblk1 V c 2 t) (fblk1 V c 3 t d3) (fblk1 V c 4 t d4) (fblk1 V c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  iexists d3, d4, d5
  isplitl [H3]; · iexact H3
  isplitl [H4]; · iexact H4
  isplitl [H5]; · iexact H5
  unfold outblk1
  iexact H6

/-- The window the frame forgets: the score window, whose block at the last point depends on the unnamed rows. -/
abbrev fgt6 : Fin cfg1.W → Bool := fun w => decide (w = 6)

theorem fgt6_0 : fgt6 0 = false := by decide
theorem fgt6_1 : fgt6 1 = false := by decide
theorem fgt6_2 : fgt6 2 = false := by decide
theorem fgt6_3 : fgt6 3 = false := by decide
theorem fgt6_4 : fgt6 4 = false := by decide
theorem fgt6_5 : fgt6 5 = false := by decide
theorem fgt6_6 : fgt6 6 = true := by decide

/-- A gallery window's buffer after the body, restated on the rows its transfers move with `d` past the array's end:
    cutting the filled block gives the block back, so this is the fetched block over `d`. -/
theorem kept1_3 (c : Dev nD) (t : Fin cfg1.N) (d) :
    (cfg1.win 3).fill (cfg1.grid.coords t) d ((cfg1.win 3).cut (cfg1.grid.coords t) ((dat1 V c).after 3 t)) = fblk1 V c 3 t d := by
  rw [after1_3]
  exact congrArg ((cfg1.win 3).fill (cfg1.grid.coords t) d)
    ((cfg1.win 3).cut_fill (cfg1.grid.coords t) (fun _ => zw) (iblk1 V c 3 t))
theorem kept1_4 (c : Dev nD) (t : Fin cfg1.N) (d) :
    (cfg1.win 4).fill (cfg1.grid.coords t) d ((cfg1.win 4).cut (cfg1.grid.coords t) ((dat1 V c).after 4 t)) = fblk1 V c 4 t d := by
  rw [after1_4]
  exact congrArg ((cfg1.win 4).fill (cfg1.grid.coords t) d)
    ((cfg1.win 4).cut_fill (cfg1.grid.coords t) (fun _ => zw) (iblk1 V c 4 t))
theorem kept1_5 (c : Dev nD) (t : Fin cfg1.N) (d) :
    (cfg1.win 5).fill (cfg1.grid.coords t) d ((cfg1.win 5).cut (cfg1.grid.coords t) ((dat1 V c).after 5 t)) = fblk1 V c 5 t d := by
  rw [after1_5]
  exact congrArg ((cfg1.win 5).fill (cfg1.grid.coords t) d)
    ((cfg1.win 5).cut_fill (cfg1.grid.coords t) (fun _ => zw) (iblk1 V c 5 t))

/-- THE FRAME'S BODY OBLIGATION, at any float instance: the library's loose obligation with the score window FORGOTTEN
    (handed over and taken back at contents nothing names); every other window is stated exactly, the gallery windows
    on the rows their transfers move. -/
theorem body_obligation1_frame (c : Dev nD) :
    BodyObligationLoose (dat1 (F := F) V c) (defs₀ (F := F)) Variants.none () Set.univ fgt6 := fun t => by
  rw [bigSep_W1, bigSep_W1]
  simp only
  simp only [fgt6_0, fgt6_1, fgt6_2, fgt6_3, fgt6_4, fgt6_5, fgt6_6]
  refine (body1_step V c t).trans (wp_mono _ _ _ fun _ => ?_)
  iintro ⟨HΦ, Ho, H0, H1, H2, %d3, %d4, %d5, H3, H4, H5, H6⟩
  isplitl [HΦ]; · iexact HΦ
  isplitl [Ho]; · iexact Ho
  isplitl [H0]; · rw [after1_0]; iexact H0
  isplitl [H1]; · rw [after1_1]; iexact H1
  isplitl [H2]; · rw [after1_2]; iexact H2
  isplitl [H3]; · iexists d3; rw [kept1_3]; iexact H3
  isplitl [H4]; · iexists d4; rw [kept1_4]; iexact H4
  isplitl [H5]; · iexists d5; rw [kept1_5]; iexact H5
  iexists _; iexact H6

end Region1

end Cert.Kernel.Hand

end
-- ==== Proof.K.Vals.lean ====
/-
  The buffer contents at each boundary of the program, which is two pallas_calls and nothing else: at launch; after
  the first call, whose three output arrays hold what its write-backs leave; after the second, whose score array
  holds what its ten write-backs leave. No item writes an argument array, so each argument reads back as launched.
-/
import proofs.«153459_g75874892251866_cont_9to1_m_1391_4_alg».proof.Proof.Gen.Kernel.Launch
import proofs.«153459_g75874892251866_cont_9to1_m_1391_4_alg».proof.Proof.Gen.Kernel.Skeleton
import proofs.«153459_g75874892251866_cont_9to1_m_1391_4_alg».proof.Proof.Gen.Kernel.Points
import proofs.«153459_g75874892251866_cont_9to1_m_1391_4_alg».proof.Proof.K.Region0
import proofs.«153459_g75874892251866_cont_9to1_m_1391_4_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (what the second region's proof data take). -/
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- At the second region's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- The score array at the end is what the second pipeline's write-backs leave. -/
theorem W4_main_v0 (c : Dev nD) : W4 m ρ c (Proc.devRef .tc main_v0) = (dat1 (V2 m ρ) c).arrAt 6 cfg1.N :=
  W4_arr m ρ c 6

/-! The arguments end as launched: `x`, `W1`, `W2`, `W3` are input windows of the first region and bypass the second; the
    galleries bypass the first and are input windows of the second. -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V0 m ρ) c).arrAt_in 1 rfl _).trans (A_eq0 (V0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V0 m ρ) c).arrAt_in 2 rfl _).trans (A_eq0 (V0 m ρ) c 2))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 3).trans (((dat0 (V0 m ρ) c).arrAt_in 3 rfl _).trans (A_eq0 (V0 m ρ) c 3))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 3).trans (((dat1 (V2 m ρ) c).arrAt_in 3 rfl _).trans (A_eq1 (V2 m ρ) c 3))
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 4).trans (((dat1 (V2 m ρ) c).arrAt_in 4 rfl _).trans (A_eq1 (V2 m ρ) c 4))
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := (W4_arr m ρ c 5).trans (((dat1 (V2 m ρ) c).arrAt_in 5 rfl _).trans (A_eq1 (V2 m ρ) c 5))
    _ = W0 m ρ c (Proc.devRef .tc main_arg6) := W2_of_ne m ρ c main_arg6 (by decide)
    _ = m ((c : Thread nD τ).loc main_arg6) := rfl

end Cert.Kernel.Hand

end
-- ==== Proof.K.LaunchF.lean ====
/-
  The word-level program's frame, at any float instance: every weakly fair execution of its two pallas_calls
  terminates without a fault and leaves the seven argument arrays as launched.
-/
import proofs.«153459_g75874892251866_cont_9to1_m_1391_4_alg».proof.Proof.Gen.Kernel.Launch
import proofs.«153459_g75874892251866_cont_9to1_m_1391_4_alg».proof.Proof.Gen.Kernel.Skeleton
import proofs.«153459_g75874892251866_cont_9to1_m_1391_4_alg».proof.Proof.Gen.Kernel.Points
import proofs.«153459_g75874892251866_cont_9to1_m_1391_4_alg».proof.Proof.K.Vals
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
/-- The same read relationally: the first pipeline's as it stands, the second's FORGETTING the score window, whose
    block at the last point depends on staging rows nothing names. -/
def rdats : (p : Fin 2) → (c : Dev nD) → Pipeline.RDat τ (Elt F) Unit ℕ (UR sig nD τ) ℕ (Pipeline.pin (pcfgs (F := F)) adm p) c
  | ⟨0, _⟩ => fun c => (dat0 (V0 m ρ) c).toR
  | ⟨1, _⟩ => fun c => (dat1 (V2 m ρ) c).toRForget fgt6
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! The arguments after the first call are as launched: `x` and the weight matrices are its input windows, the
    galleries bypass it. -/

theorem W2_main_arg0 (c : Dev nD) : W2 m ρ c (Proc.devRef .tc main_arg0) = m ((c : Thread nD τ).loc main_arg0) :=
  (W2_arr m ρ c 0).trans (((dat0 (V0 m ρ) c).arrAt_in 0 rfl _).trans (A_eq0 (V0 m ρ) c 0))
theorem W2_main_arg1 (c : Dev nD) : W2 m ρ c (Proc.devRef .tc main_arg1) = m ((c : Thread nD τ).loc main_arg1) :=
  (W2_arr m ρ c 1).trans (((dat0 (V0 m ρ) c).arrAt_in 1 rfl _).trans (A_eq0 (V0 m ρ) c 1))
theorem W2_main_arg2 (c : Dev nD) : W2 m ρ c (Proc.devRef .tc main_arg2) = m ((c : Thread nD τ).loc main_arg2) :=
  (W2_arr m ρ c 2).trans (((dat0 (V0 m ρ) c).arrAt_in 2 rfl _).trans (A_eq0 (V0 m ρ) c 2))
theorem W2_main_arg3 (c : Dev nD) : W2 m ρ c (Proc.devRef .tc main_arg3) = m ((c : Thread nD τ).loc main_arg3) :=
  (W2_arr m ρ c 3).trans (((dat0 (V0 m ρ) c).arrAt_in 3 rfl _).trans (A_eq0 (V0 m ρ) c 3))
theorem W2_main_arg4 (c : Dev nD) : W2 m ρ c (Proc.devRef .tc main_arg4) = m ((c : Thread nD τ).loc main_arg4) :=
  W2_of_ne m ρ c main_arg4 (by decide)
theorem W2_main_arg5 (c : Dev nD) : W2 m ρ c (Proc.devRef .tc main_arg5) = m ((c : Thread nD τ).loc main_arg5) :=
  W2_of_ne m ρ c main_arg5 (by decide)
theorem W2_main_arg6 (c : Dev nD) : W2 m ρ c (Proc.devRef .tc main_arg6) = m ((c : Thread nD τ).loc main_arg6) :=
  W2_of_ne m ρ c main_arg6 (by decide)

/-- A valuation that holds the seven arguments as they are after the first call. -/
def Agrees (c : Dev nD) (Vv : Valuation τ sig (Elt F)) : Prop :=
  Vv (Proc.devRef .tc main_arg0) = W2 m ρ c (Proc.devRef .tc main_arg0)
  ∧ Vv (Proc.devRef .tc main_arg1) = W2 m ρ c (Proc.devRef .tc main_arg1)
  ∧ Vv (Proc.devRef .tc main_arg2) = W2 m ρ c (Proc.devRef .tc main_arg2)
  ∧ Vv (Proc.devRef .tc main_arg3) = W2 m ρ c (Proc.devRef .tc main_arg3)
  ∧ Vv (Proc.devRef .tc main_arg4) = W2 m ρ c (Proc.devRef .tc main_arg4)
  ∧ Vv (Proc.devRef .tc main_arg5) = W2 m ρ c (Proc.devRef .tc main_arg5)
  ∧ Vv (Proc.devRef .tc main_arg6) = W2 m ρ c (Proc.devRef .tc main_arg6)

/-- The last thread state without the dues: every unscoped buffer at SOME contents that hold the arguments as they
    were after the first call (the score array's are not named), the generator register at some state. -/
abbrev Tₙ (c : Dev nD) : sProp 𝕄 :=
  iprop(∃ Vv : Valuation τ sig (Elt F), ⌜Agrees m ρ c Vv⌝ ∗ StableHlo.held (c : Thread nD τ) (Pipeline.ucRefs τ sig) Vv ∗ ∃ r, prngReg c r)

/-! ## The regions as segments -/

set_option backward.isDefEq.respectTransparency.types false in
/-- THE FIRST CALL as a segment of the thread state. Entered with every unscoped buffer at the launch contents, left with
    them at `W2`: its windows are the arrays `x`, `W1`, `W2`, `W3` (read) and the three embedding arrays (written); the
    galleries and the score array bypass it. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose.toR
  hwaits := Pipeline.RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  -- entry: the seven windows' arrays leave the unscoped buffers for the pipeline, the buffers that bypass the region
  -- wait in `Z`, the generator register in `X`; there is no prefetched table and the core owes nothing
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (V0 m ρ c) fun _ => rfl
    rw [Pipeline.unscopedBufs_held] at hsplit
    iintro ⟨⟨Hbufs, Hprng, Hdue⟩, -, -⟩
    ihave H := hsplit $$ Hbufs
    icases H with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.RDat.owesAt Pipeline.owesWithin
      icases Hdue with ⟨%W, Hdue⟩; iexists W; isplitr; · ipureintro; exact fun _ _ => Or.inl trivial
      iexact Hdue
    isplitl [Hprng]; · iexact Hprng
    iexact Hbypass
  -- the invariant before the first point: the scoped buffers no window stages, and the generator register
  hin c := by
    rw [show (rdats m ρ 0 c).Φ 0 = Pipeline.ΦA spec0 c from rfl]; unfold Pipeline.ΦA
    iintro ⟨Hprng, -, Hscoped⟩
    isplitl [Hscoped]; · iexact Hscoped
    iexact Hprng
  -- after the last point it gives both back (there is no semaphore of the kernel's own)
  hout c := by
    rw [Pipeline.ownSems0_none, show (rdats m ρ 0 c).Φ (Fin.last _) = Pipeline.ΦA spec0 c from rfl]; unfold Pipeline.ΦA
    iintro ⟨Hscoped, Hprng⟩
    isplitl [Hprng]; · iexact Hprng
    isplitr; · iempintro
    iexact Hscoped
  -- exit: the arrays may hold only what the exact data names; they rejoin the buffers that bypassed the region: every
  -- unscoped buffer at the exit contents
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    refine (sep_mono (Entails.of_eq ((pdats m ρ 0 c).toR_arraysAt_eq cfg0.N)) .rfl).trans ?_
    iintro ⟨Harr, Hdue, Hprng, Hbypass⟩
    imodintro
    isplitl [Harr Hbypass]
    · iapply hjoin; isplitl [Harr] <;> iassumption
    isplitl [Hprng]; · iexact Hprng
    unfold Pipeline.RDat.owesAt Pipeline.owesWithin
    icases Hdue with ⟨%W, -, Hdue⟩; iexists W; iexact Hdue

set_option backward.isDefEq.respectTransparency.types false in
/-- THE SECOND CALL as a segment of the thread state. Entered with every unscoped buffer at `W2`; its windows are the
    three embedding arrays and the three galleries (read) and the score array (written); `x` and the weight matrices
    bypass it. Left with every unscoped buffer at SOME contents: an input window's array is never written, so the
    galleries are as entered, and the score array holds whatever the ten write-backs left. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1_frame (V2 m ρ) c).toRForget
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  -- entry: the seven windows' arrays leave the unscoped buffers for the pipeline, the buffers that bypass the region
  -- wait in `Z`, the generator register in `X`; there is no prefetched table and the core owes nothing
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (V2 m ρ c) fun _ => rfl
    rw [Pipeline.unscopedBufs_held] at hsplit
    iintro ⟨⟨Hbufs, Hprng, Hdue⟩, -, -⟩
    ihave H := hsplit $$ Hbufs
    icases H with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.RDat.owesAt Pipeline.owesWithin
      icases Hdue with ⟨%W, Hdue⟩; iexists W; isplitr; · ipureintro; exact fun _ _ => Or.inl trivial
      iexact Hdue
    isplitl [Hprng]; · iexact Hprng
    iexact Hbypass
  -- the invariant before the first point: the scoped buffers no window stages, and the generator register
  hin c := by
    rw [show (rdats m ρ 1 c).Φ 0 = Pipeline.ΦA spec1 c from rfl]; unfold Pipeline.ΦA
    iintro ⟨Hprng, -, Hscoped⟩
    isplitl [Hscoped]; · iexact Hscoped
    iexact Hprng
  -- after the last point it gives both back (there is no semaphore of the kernel's own)
  hout c := by
    rw [Pipeline.ownSems0_none, show (rdats m ρ 1 c).Φ (Fin.last _) = Pipeline.ΦA spec1 c from rfl]; unfold Pipeline.ΦA
    iintro ⟨Hscoped, Hprng⟩
    isplitl [Hprng]; · iexact Hprng
    isplitr; · iempintro
    iexact Hscoped
  -- exit: each array comes back at some contents it may hold; chosen all at once they rejoin the buffers that bypassed
  -- the region at the entry valuation updated at the arrays, which holds the arguments as entered: `x` and the weight
  -- matrices are no array of this pipeline, a gallery is an input window's array
  hexit c := by
    have hjoin : ∀ Farr : (w : Fin cfg1.W) → Buf (Elt F) ((spec1 w).arr.view.loc (c : Thread nD τ)),
        iprop((pdats m ρ 1 c).arrays Farr ∗ Pipeline.unscopedRest (Ix := Unit) (Name := ℕ) (U := UR sig nD τ) (Lvl := ℕ) spec1 c (V2 m ρ c))
          ⊢ (StableHlo.held (c : Thread nD τ) (Pipeline.ucRefs τ sig) (Pipeline.withArrays spec1 c (W2 m ρ c) Farr) : sProp 𝕄) := fun Farr =>
      (Pipeline.unscopedBufs_of_arrays (p := 1) (pcfgs (F := F)) adm (Ix := Unit) (Name := ℕ) (U := UR sig nD τ) (Lvl := ℕ)
        launch1.win launch1.arr_whole c (pdats m ρ) ((pdats m ρ 1 c).share_full fun _ => rfl)
        (V2 m ρ c) (fun b => Pipeline.withArrays spec1 c (W2 m ρ c) Farr b) Farr
        (fun w => (Pipeline.withArrays_arr spec1 launch1.win.arr_inj c _ _ w).symm)
        (fun b hb => Pipeline.withArrays_of_ne spec1 c _ _ b fun w e => hb (Finset.mem_image.mpr ⟨w, Finset.mem_univ _, e⟩))).trans
      (Entails.of_eq (Pipeline.unscopedBufs_held c _))
    have hpick : ((rdats m ρ 1 c).arraysAt cfg1.N : sProp 𝕄)
        ⊢ iprop(∃ Farr : (w : Fin cfg1.W) → Buf (Elt F) ((spec1 w).arr.view.loc (c : Thread nD τ)),
            ⌜(rdats m ρ 1 c).ArrAt 3 cfg1.N (Farr 3) ∧ (rdats m ρ 1 c).ArrAt 4 cfg1.N (Farr 4) ∧ (rdats m ρ 1 c).ArrAt 5 cfg1.N (Farr 5)⌝
              ∗ (pdats m ρ 1 c).arrays Farr) := by
      unfold Pipeline.RDat.arraysAt
      refine (bigSep_exists_pi Finset.univ _).trans (exists_mono fun Farr => ?_)
      unfold Pipeline.Dat.arrays
      rw [bigSep_W1, bigSep_W1]
      iintro ⟨⟨-, H0⟩, ⟨-, H1⟩, ⟨-, H2⟩, ⟨%h3, H3⟩, ⟨%h4, H4⟩, ⟨%h5, H5⟩, ⟨-, H6⟩⟩
      isplitr; · ipureintro; exact ⟨h3, h4, h5⟩
      isplitl [H0]; · iexact H0
      isplitl [H1]; · iexact H1
      isplitl [H2]; · iexact H2
      isplitl [H3]; · iexact H3
      isplitl [H4]; · iexact H4
      isplitl [H5]; · iexact H5
      iexact H6
    iintro ⟨Harr, Hdue, Hprng, Hbypass⟩
    ihave H := hpick $$ Harr
    icases H with ⟨%Farr, ⟨%h3, %h4, %h5⟩, Harr⟩
    imodintro
    isplitl [Harr Hbypass Hprng]
    · iexists Pipeline.withArrays spec1 c (W2 m ρ c) Farr
      isplitr
      · ipureintro
        exact ⟨Pipeline.withArrays_of_ne spec1 c _ _ main_arg0 (by decide), Pipeline.withArrays_of_ne spec1 c _ _ main_arg1 (by decide),
          Pipeline.withArrays_of_ne spec1 c _ _ main_arg2 (by decide), Pipeline.withArrays_of_ne spec1 c _ _ main_arg3 (by decide),
          (Pipeline.withArrays_arr spec1 launch1.win.arr_inj c _ _ 3).trans
            ((((dat1 (V2 m ρ) c).toRForget_arrAt_iff fgt6_3 cfg1.N (Farr 3)).mp h3).trans
              (((dat1 (V2 m ρ) c).arrAt_in 3 rfl _).trans (A_eq1 (V2 m ρ) c 3))),
          (Pipeline.withArrays_arr spec1 launch1.win.arr_inj c _ _ 4).trans
            ((((dat1 (V2 m ρ) c).toRForget_arrAt_iff fgt6_4 cfg1.N (Farr 4)).mp h4).trans
              (((dat1 (V2 m ρ) c).arrAt_in 4 rfl _).trans (A_eq1 (V2 m ρ) c 4))),
          (Pipeline.withArrays_arr spec1 launch1.win.arr_inj c _ _ 5).trans
            ((((dat1 (V2 m ρ) c).toRForget_arrAt_iff fgt6_5 cfg1.N (Farr 5)).mp h5).trans
              (((dat1 (V2 m ρ) c).arrAt_in 5 rfl _).trans (A_eq1 (V2 m ρ) c 5)))⟩
      isplitl [Harr Hbypass]
      · iapply (hjoin Farr); isplitl [Harr] <;> iassumption
      iexact Hprng
    unfold Pipeline.RDat.owesAt Pipeline.owesWithin
    icases Hdue with ⟨%W, -, Hdue⟩; iexists W; iexact Hdue

/-! ## @main as segments, and the launch -/

/-- @main's two segments in order: a region per pallas_call, no host stretch between them. -/
abbrev segs : List (Pipeline.RDat.Seg (pcfgs (F := F)) adm (rdats m ρ) () defs₀ 𝒱₀ L lv) :=
  [ .region (reg0 m ρ), .region (reg1 m ρ) ]
/-- @main IS the run of the segments. -/
theorem main_run (c : Dev nD) : main (F := F) c = Pipeline.RDat.Seg.run (segs m ρ) := (main_chain c).trans (by chain_rfl)

set_option backward.isDefEq.respectTransparency.types false in
/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    -- the launch's ghost state is the pipelines' cells and tokens, and no core takes a resource of its own
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    -- the first thread state: every unscoped buffer at the launch memory, the generator register, the empty dues
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the final memory holds every unscoped buffer at some valuation that has the arguments as after the first call
    (QY := fun c s => ∃ Vv : Valuation τ sig (Elt F), Agrees m ρ c Vv ∧ ∀ b ∈ Pipeline.ucRefs τ sig, s.mem (((c : Thread nD τ)).1, b) = Vv b)
    (hfin := fun c s' => by
      iintro ⟨⟨%Vv, %hag, Hh, -⟩, HSI⟩
      unfold StableHlo.held
      imodintro
      ihave Hr := (pointsTo_read_all (Pipeline.ucRefs τ sig) (fun b => (((c : Thread nD τ)).1, b)) Vv s') $$ [Hh HSI]
      · isplitl [Hh] <;> iassumption
      icases Hr with ⟨%h, HSI⟩
      isplitr
      · ipureintro; exact ⟨Vv, hag, h⟩
      iexact HSI)
    -- each argument: read at that valuation, which agrees with `W2` there, which is the launch memory there
    (hQ := fun s h c => by
      obtain ⟨Vv, hag, hr⟩ := h c
      exact ⟨(hr _ (mem_uc main_arg0 (by decide))).trans (hag.1.trans (W2_main_arg0 m ρ c)),
        (hr _ (mem_uc main_arg1 (by decide))).trans (hag.2.1.trans (W2_main_arg1 m ρ c)),
        (hr _ (mem_uc main_arg2 (by decide))).trans (hag.2.2.1.trans (W2_main_arg2 m ρ c)),
        (hr _ (mem_uc main_arg3 (by decide))).trans (hag.2.2.2.1.trans (W2_main_arg3 m ρ c)),
        (hr _ (mem_uc main_arg4 (by decide))).trans (hag.2.2.2.2.1.trans (W2_main_arg4 m ρ c)),
        (hr _ (mem_uc main_arg5 (by decide))).trans (hag.2.2.2.2.2.1.trans (W2_main_arg5 m ρ c)),
        (hr _ (mem_uc main_arg6 (by decide))).trans (hag.2.2.2.2.2.2.trans (W2_main_arg6 m ρ c))⟩)

end Cert.Kernel.Hand

end
-- ==== Proof.KI.Bodies.lean ====
/-
  The two kernel bodies as triples of separation logic, at any float instance.

  The first kernel loads the query features and the three weight matrices whole and stores three whole blocks: the
  head-1 embedding and the two row-normalised embeddings. The second loads the three embedding blocks and one block
  of each gallery whole and stores the whole block of scores. Each store's value is the skeleton's payload of the
  loaded values, so each output buffer ends at that payload and every input buffer is as it was.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- One store through the rectangle of the whole shape at zero offsets, over any prior contents, reads back as its
    payload: the rectangle covers every index, and the canon of one covering piece is the piece's payload. -/
theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

set_option maxHeartbeats 1000000 in
/-- The first kernel's body: from the four inputs' buffers at `x0 … x3` and the three outputs' at anything, it runs to
    the inputs' as they were and the outputs' at the payloads of the inputs. -/
theorem sound_kernel0 (c : Dev nD) (E : Set ℕ)
    (arg0 : Memref sig .tc .vmem S1024x512 .f32) (harg0 : arg0.IsWhole) (arg1 : Memref sig .tc .vmem S512x128 .f32) (harg1 : arg1.IsWhole)
    (arg2 : Memref sig .tc .vmem S512x128 .f32) (harg2 : arg2.IsWhole) (arg3 : Memref sig .tc .vmem S512x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole)
    (x0 : Vec F S1024x512 .f32) (x1 x2 x3 : Vec F S512x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
              ∗ owns (c : Thread nD τ) arg3 fullShare x3
              ∗ owns (c : Thread nD τ) arg4 fullShare (k0_pay1 x0 x1) ∗ owns (c : Thread nD τ) arg5 fullShare (k0_pay2 x0 x2)
              ∗ owns (c : Thread nD τ) arg6 fullShare (k0_pay3 x0 x3)) -∗ K ⟨⟩))
      ⊢ wp frame (wpE (defs₀ (F := F)) Variants.none c none) E
          (cc0__embed_kernel arg0 harg0 arg1 harg1 arg2 harg2 arg3 harg3 arg4 harg4 arg5 harg5 arg6 harg6) K := by
  have hz : (![0, 0] : Fin 2 → Nat) = fun _ => 0 := funext fun a => by fin_cases a <;> rfl
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_whole _ _ hz _ _).trans ?_
    exact congrArg₂ k0_pay1 (View.ld_unit_zero (S := S1024x512) hz _ _) (View.ld_unit_zero (S := S512x128) hz _ _)
  isplitl [H5]
  · iexists _; isplitr
    swap; · iexact H5
    ipureintro
    refine (read_store_whole _ _ hz _ _).trans ?_
    exact congrArg₂ k0_pay2 (View.ld_unit_zero (S := S1024x512) hz _ _) (View.ld_unit_zero (S := S512x128) hz _ _)
  iexists _; isplitr
  swap; · iexact H6
  ipureintro
  refine (read_store_whole _ _ hz _ _).trans ?_
  exact congrArg₂ k0_pay3 (View.ld_unit_zero (S := S1024x512) hz _ _) (View.ld_unit_zero (S := S512x128) hz _ _)

/-- The scores' payload at equal arguments. -/
theorem k1_pay1_congr {a a' : FVec F S1024x2048 .f32} {b b' : Vec F S2048x128 .f32} {c c' : FVec F S2048x128 .f32}
    {d d' : Vec F S1024x128 .f32} {e e' : Vec F S2048x128 .f32} {g g' : Vec F S1024x128 .f32}
    (ha : a = a') (hb : b = b') (hc : c = c') (hd : d = d') (he : e = e') (hg : g = g') :
    k1_pay1 a b c d e g = k1_pay1 a' b' c' d' e' g' := by
  subst ha; subst hb; subst hc; subst hd; subst he; subst hg; rfl

set_option maxHeartbeats 1000000 in
/-- The second kernel's body at any grid coordinates: from the six inputs' buffers at `X0 … X5` and the output's at
    anything, it runs to the inputs' as they were and the output's at the payload of the inputs. -/
theorem sound_kernel1 (c : Dev nD) (E : Set ℕ) (i : grid1.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S1024x2048 .f32) (harg7 : arg7.IsWhole)
    (X0 X1 X2 : Vec F S1024x128 .f32) (X3 X4 X5 : Vec F S2048x128 .f32) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ owns (c : Thread nD τ) arg6 fullShare X5
        ∗ (∃ d, owns (c : Thread nD τ) arg7 fullShare d)
        ∗ (iprop(owns (c : Thread nD τ) arg1 fullShare X0 ∗ owns (c : Thread nD τ) arg2 fullShare X1 ∗ owns (c : Thread nD τ) arg3 fullShare X2
              ∗ owns (c : Thread nD τ) arg4 fullShare X3 ∗ owns (c : Thread nD τ) arg5 fullShare X4 ∗ owns (c : Thread nD τ) arg6 fullShare X5
              ∗ owns (c : Thread nD τ) arg7 fullShare (k1_pay1 (k1_pay2 X0 X3) X4 (k1_pay3 X4) X1 X5 X2)) -∗ K ⟨⟩))
      ⊢ wp frame (wpE (defs₀ (F := F)) Variants.none c none) E
          (cc1__main_kernel i arg1 harg1 arg2 harg2 arg3 harg3 arg4 harg4 arg5 harg5 arg6 harg6 arg7 harg7) K := by
  have hz : (![0, 0] : Fin 2 → Nat) = fun _ => 0 := funext fun a => by fin_cases a <;> rfl
  simp only [cc1__main_kernel_eq_skeleton]; unfold cc1__main_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_store_whole _ _ hz _ _).trans ?_
  -- each whole-buffer load reads its buffer's contents
  have e1 : View.ld (View.read (Elt F) arg1.view f1) (Rect.unit (s := S1024x128) ![0, 0] S1024x128.size inb_S1024x128_S1024x128_0_0)
      = View.read (Elt F) arg1.view f1 := View.ld_unit_zero (S := S1024x128) hz _ _
  have e2 : View.ld (View.read (Elt F) arg2.view f2) (Rect.unit (s := S1024x128) ![0, 0] S1024x128.size inb_S1024x128_S1024x128_0_0)
      = View.read (Elt F) arg2.view f2 := View.ld_unit_zero (S := S1024x128) hz _ _
  have e3 : View.ld (View.read (Elt F) arg3.view f3) (Rect.unit (s := S1024x128) ![0, 0] S1024x128.size inb_S1024x128_S1024x128_0_0)
      = View.read (Elt F) arg3.view f3 := View.ld_unit_zero (S := S1024x128) hz _ _
  have e4 : View.ld (View.read (Elt F) arg4.view f4) (Rect.unit (s := S2048x128) ![0, 0] S2048x128.size inb_S2048x128_S2048x128_0_0)
      = View.read (Elt F) arg4.view f4 := View.ld_unit_zero (S := S2048x128) hz _ _
  have e5 : View.ld (View.read (Elt F) arg5.view f5) (Rect.unit (s := S2048x128) ![0, 0] S2048x128.size inb_S2048x128_S2048x128_0_0)
      = View.read (Elt F) arg5.view f5 := View.ld_unit_zero (S := S2048x128) hz _ _
  have e6 : View.ld (View.read (Elt F) arg6.view f6) (Rect.unit (s := S2048x128) ![0, 0] S2048x128.size inb_S2048x128_S2048x128_0_0)
      = View.read (Elt F) arg6.view f6 := View.ld_unit_zero (S := S2048x128) hz _ _
  exact k1_pay1_congr (congrArg₂ k1_pay2 e1 e4) e5 (congrArg k1_pay3 e5) e2 e6 e3

end Cert.KernelIdeal.Hand

end
-- ==== Proof.KI.Region0.lean ====
/-
  The first pallas_call (no grid: one point) as a pipeline region, at any float instance.

  Its four input windows are the whole arrays `x`, `W1`, `W2`, `W3`; its three output windows the whole arrays that hold
  the head-1 embedding and the two row-normalised embeddings. After the body each input's staging buffer still holds
  its array and each output's holds the body's payload of the inputs, which the write-back then copies to the array.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import proofs.«153459_g75874892251866_cont_9to1_m_1391_4_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place: the window is whole, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s
    and whose body leaves the block in place: the window is whole, uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s
    and whose body leaves the block in place: the window is whole, uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose array is `V`'s
    and whose body leaves the block in place: the window is whole, uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`: the arrays as the region finds them; after the body each input's
    buffer at its block and each output's at the payload of the input blocks; the class invariant (the scoped rest and
    the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t)
    | ⟨5, _⟩ => k0_pay2 (iblk0 V c 0 t) (iblk0 V c 2 t)
    | ⟨6, _⟩ => k0_pay3 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (iblk0 V c 0 t) (iblk0 V c 1 t) := by dsimp only [dat0]
theorem after0_5 (c : Dev nD) (t : Fin cfg0.N) : (dat0 V c).after 5 t = k0_pay2 (iblk0 V c 0 t) (iblk0 V c 2 t) := by dsimp only [dat0]
theorem after0_6 (c : Dev nD) (t : Fin cfg0.N) : (dat0 V c).after 6 t = k0_pay3 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  The second pallas_call (a grid of ten points over gallery blocks of 2048 rows) as a pipeline region, at any float
  instance.

  Windows 0, 1, 2 are the whole embedding arrays (fetched once). Windows 3, 4, 5 are the galleries in blocks of 2048
  rows and window 6 the scores in blocks of 2048 columns: 10 · 2048 = 20480 > 20000, so the LAST block overhangs its
  array by 480 rows (columns). A fetch of an overhanging block fills only the rows inside the array; the rest of the
  staging buffer holds words nothing names, and a write-back copies only the columns inside the array. The body
  computes column `j` of the score block from row `j` of each gallery block alone, so the unnamed rows reach only
  columns that are never written back.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import proofs.«153459_g75874892251866_cont_9to1_m_1391_4_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero word, the filler this proof picks for the part of a staging buffer no transfer moves. -/
abbrev zw : Elt F .f32 := Scalar.ofBits .f32 0#32

/-- A gallery window's staging buffer once the fetch at `t` has landed on contents `d`: the block's rows inside the
    array, `d` on the rows past the array's end (none but at the last point). -/
def fblk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- The score block the body stores at point `t` when the gallery buffers' unnamed rows hold `d3`, `d4`, `d5`. -/
def outblk1 (c : Dev nD) (t : Fin cfg1.N) (d3 d4 d5 : S2048x128.Idx → Elt F .f32) : Vec F S1024x2048 .f32 :=
  k1_pay1 (k1_pay2 (iblk1 V c 0 t) (fblk1 V c 3 t d3)) (fblk1 V c 4 t d4) (k1_pay3 (fblk1 V c 4 t d4))
    (iblk1 V c 1 t) (fblk1 V c 5 t d5) (iblk1 V c 2 t)

/-- Input window 0 (a whole array, fetched at the first point only, its block index never moving): its staging buffer holds
    the array at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (a whole array, fetched at the first point only, its block index never moving): its staging buffer holds
    the array at every point, for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (a whole array, fetched at the first point only, its block index never moving): its staging buffer holds
    the array at every point, for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body the embedding
    windows' buffers at their arrays, the gallery windows' at their blocks (the unnamed rows filled with the zero word:
    nothing reads this choice), the score window's at the block computed from those; the class invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fblk1 V c 3 t (fun _ => zw)
    | ⟨4, _⟩ => fblk1 V c 4 t (fun _ => zw)
    | ⟨5, _⟩ => fblk1 V c 5 t (fun _ => zw)
    | ⟨6, _⟩ => outblk1 V c t (fun _ => zw) (fun _ => zw) (fun _ => zw)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fblk1 V c 3 t (fun _ => zw) := by dsimp only [dat1]
theorem after1_4 (c : Dev nD) (t : Fin cfg1.N) : (dat1 V c).after 4 t = fblk1 V c 4 t (fun _ => zw) := by dsimp only [dat1]
theorem after1_5 (c : Dev nD) (t : Fin cfg1.N) : (dat1 V c).after 5 t = fblk1 V c 5 t (fun _ => zw) := by dsimp only [dat1]
theorem after1_6 (c : Dev nD) (t : Fin cfg1.N) :
    (dat1 V c).after 6 t = outblk1 V c t (fun _ => zw) (fun _ => zw) (fun _ => zw) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- A gallery window is fetched at every point: its buffer holds the block where the fetch filled it, `d` elsewhere. -/
theorem before1_3 (c : Dev nD) (t : Fin cfg1.N) (d) : (dat1 V c).before 3 t d = fblk1 V c 3 t d := by
  unfold Dat.before; rw [if_pos (fetch1_3 t)]; rfl
theorem before1_4 (c : Dev nD) (t : Fin cfg1.N) (d) : (dat1 V c).before 4 t d = fblk1 V c 4 t d := by
  unfold Dat.before; rw [if_pos (fetch1_4 t)]; rfl
theorem before1_5 (c : Dev nD) (t : Fin cfg1.N) (d) : (dat1 V c).before 5 t d = fblk1 V c 5 t d := by
  unfold Dat.before; rw [if_pos (fetch1_5 t)]; rfl
/-- The score window is an output: no point fetches it. -/
theorem fetch1_6 : ∀ t : Fin cfg1.N, (cfg1.win 6).fetch t = false :=
  (by decide +kernel : ∀ t : Fin grid1.N, win1_6.fetch t = false)

/-- The score window is written back at every point: the body finds its buffer at contents nothing names. -/
theorem before1_6 (c : Dev nD) (t : Fin cfg1.N) (d) : (dat1 V c).before 6 t d = d := by
  by_cases h0 : t.val = 0
  · unfold Dat.before
    rw [if_neg (by rw [fetch1_6 t]; exact Bool.false_ne_true), if_pos h0]
  · rw [Dat.before_of_pos _ _ _ h0 (fetch1_6 t), if_pos (flush1_6 _)]

/-- THE BODY'S STEP at point `t`, with the unnamed rows made explicit: from the invariant, the dues and the seven current
    buffers as the pipeline hands them over, the body runs to the invariant and dues of the next point, the embedding
    buffers at their arrays, and — for the contents `d3 d4 d5` the gallery buffers held past the array's end — the
    gallery buffers unchanged and the score buffer at the block computed from them. -/
theorem body1_step (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ X, owns (c : Thread nD τ) (st1_6 t) fullShare X))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ ∃ d3 d4 d5, iprop(owns (c : Thread nD τ) (st1_3 t) fullShare (fblk1 V c 3 t d3)
              ∗ owns (c : Thread nD τ) (st1_4 t) fullShare (fblk1 V c 4 t d4)
              ∗ owns (c : Thread nD τ) (st1_5 t) fullShare (fblk1 V c 5 t d5)
              ∗ owns (c : Thread nD τ) (st1_6 t) fullShare (outblk1 V c t d3 d4 d5)))) := by
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, H6⟩
  unfold bodyAt1
  iapply (sound_kernel1 c Set.univ (grid1.coords t) _ _ _ _ _ _ _ _ _ _ _ _ _ _
    (iblk1 V c 0 t) (iblk1 V c 1 t) (iblk1 V c 2 t) (fblk1 V c 3 t d3) (fblk1 V c 4 t d4) (fblk1 V c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  iexists d3, d4, d5
  isplitl [H3]; · iexact H3
  isplitl [H4]; · iexact H4
  isplitl [H5]; · iexact H5
  unfold outblk1
  iexact H6

/-- The window the frame forgets: the score window, whose block at the last point depends on the unnamed rows. -/
abbrev fgt6 : Fin cfg1.W → Bool := fun w => decide (w = 6)

theorem fgt6_0 : fgt6 0 = false := by decide
theorem fgt6_1 : fgt6 1 = false := by decide
theorem fgt6_2 : fgt6 2 = false := by decide
theorem fgt6_3 : fgt6 3 = false := by decide
theorem fgt6_4 : fgt6 4 = false := by decide
theorem fgt6_5 : fgt6 5 = false := by decide
theorem fgt6_6 : fgt6 6 = true := by decide

/-- A gallery window's buffer after the body, restated on the rows its transfers move with `d` past the array's end:
    cutting the filled block gives the block back, so this is the fetched block over `d`. -/
theorem kept1_3 (c : Dev nD) (t : Fin cfg1.N) (d) :
    (cfg1.win 3).fill (cfg1.grid.coords t) d ((cfg1.win 3).cut (cfg1.grid.coords t) ((dat1 V c).after 3 t)) = fblk1 V c 3 t d := by
  rw [after1_3]
  exact congrArg ((cfg1.win 3).fill (cfg1.grid.coords t) d)
    ((cfg1.win 3).cut_fill (cfg1.grid.coords t) (fun _ => zw) (iblk1 V c 3 t))
theorem kept1_4 (c : Dev nD) (t : Fin cfg1.N) (d) :
    (cfg1.win 4).fill (cfg1.grid.coords t) d ((cfg1.win 4).cut (cfg1.grid.coords t) ((dat1 V c).after 4 t)) = fblk1 V c 4 t d := by
  rw [after1_4]
  exact congrArg ((cfg1.win 4).fill (cfg1.grid.coords t) d)
    ((cfg1.win 4).cut_fill (cfg1.grid.coords t) (fun _ => zw) (iblk1 V c 4 t))
theorem kept1_5 (c : Dev nD) (t : Fin cfg1.N) (d) :
    (cfg1.win 5).fill (cfg1.grid.coords t) d ((cfg1.win 5).cut (cfg1.grid.coords t) ((dat1 V c).after 5 t)) = fblk1 V c 5 t d := by
  rw [after1_5]
  exact congrArg ((cfg1.win 5).fill (cfg1.grid.coords t) d)
    ((cfg1.win 5).cut_fill (cfg1.grid.coords t) (fun _ => zw) (iblk1 V c 5 t))

/-- THE FRAME'S BODY OBLIGATION, at any float instance: the library's loose obligation with the score window FORGOTTEN
    (handed over and taken back at contents nothing names); every other window is stated exactly, the gallery windows
    on the rows their transfers move. -/
theorem body_obligation1_frame (c : Dev nD) :
    BodyObligationLoose (dat1 (F := F) V c) (defs₀ (F := F)) Variants.none () Set.univ fgt6 := fun t => by
  rw [bigSep_W1, bigSep_W1]
  simp only
  simp only [fgt6_0, fgt6_1, fgt6_2, fgt6_3, fgt6_4, fgt6_5, fgt6_6]
  refine (body1_step V c t).trans (wp_mono _ _ _ fun _ => ?_)
  iintro ⟨HΦ, Ho, H0, H1, H2, %d3, %d4, %d5, H3, H4, H5, H6⟩
  isplitl [HΦ]; · iexact HΦ
  isplitl [Ho]; · iexact Ho
  isplitl [H0]; · rw [after1_0]; iexact H0
  isplitl [H1]; · rw [after1_1]; iexact H1
  isplitl [H2]; · rw [after1_2]; iexact H2
  isplitl [H3]; · iexists d3; rw [kept1_3]; iexact H3
  isplitl [H4]; · iexists d4; rw [kept1_4]; iexact H4
  isplitl [H5]; · iexists d5; rw [kept1_5]; iexact H5
  iexists _; iexact H6

end Region1

end Cert.KernelIdeal.Hand

end
-- ==== Proof.KI.Vals.lean ====
/-
  The buffer contents at each boundary of the program, which is two pallas_calls and nothing else: at launch; after
  the first call, whose three output arrays hold what its write-backs leave; after the second, whose score array
  holds what its ten write-backs leave. No item writes an argument array, so each argument reads back as launched.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import proofs.«153459_g75874892251866_cont_9to1_m_1391_4_alg».proof.Proof.KI.Region0
import proofs.«153459_g75874892251866_cont_9to1_m_1391_4_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (what the second region's proof data take). -/
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- At the second region's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- The score array at the end is what the second pipeline's write-backs leave. -/
theorem W4_main_v0 (c : Dev nD) : W4 m ρ c (Proc.devRef .tc main_v0) = (dat1 (V2 m ρ) c).arrAt 6 cfg1.N :=
  W4_arr m ρ c 6

/-! The arguments end as launched: `x`, `W1`, `W2`, `W3` are input windows of the first region and bypass the second; the
    galleries bypass the first and are input windows of the second. -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V0 m ρ) c).arrAt_in 1 rfl _).trans (A_eq0 (V0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V0 m ρ) c).arrAt_in 2 rfl _).trans (A_eq0 (V0 m ρ) c 2))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 3).trans (((dat0 (V0 m ρ) c).arrAt_in 3 rfl _).trans (A_eq0 (V0 m ρ) c 3))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 3).trans (((dat1 (V2 m ρ) c).arrAt_in 3 rfl _).trans (A_eq1 (V2 m ρ) c 3))
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 4).trans (((dat1 (V2 m ρ) c).arrAt_in 4 rfl _).trans (A_eq1 (V2 m ρ) c 4))
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := (W4_arr m ρ c 5).trans (((dat1 (V2 m ρ) c).arrAt_in 5 rfl _).trans (A_eq1 (V2 m ρ) c 5))
    _ = W0 m ρ c (Proc.devRef .tc main_arg6) := W2_of_ne m ρ c main_arg6 (by decide)
    _ = m ((c : Thread nD τ).loc main_arg6) := rfl

end Cert.KernelIdeal.Hand

end
-- ==== Proof.Spec.lean ====
/-
  The mathematics of the claim, with no program in sight.

  Query `i` has the feature row `x i` (512 numbers); head `h` embeds it as `e_h = x i · W_h` (128 numbers).
  Gallery row `j` of head `h` is `g_h` (128 numbers). The score at `(i, j)` is the mean of three similarities:

  * head 1, a thresholded radial similarity: with `y = max(|e_1|² + |g_1|² − 2⟨e_1, g_1⟩, 0) + ε`,
    the kernel forms `exp(−(y · 16/49)²)` while the reference forms `exp(−(√y / 1.75)⁴)`; for a real `y ≥ 0`
    both exponents are `y² · (16/49)²`; the result is kept when it is at least `α` and replaced by `0` otherwise;
  * heads 2 and 3, cosines: `⟨e / (|e| + ε), g / (|g| + ε)⟩`, the kernel writing the gallery factor as
    `g · (1 / (|g| + ε))`;
  * the mean: the kernel multiplies the sum by the named constant `1/3`, the reference divides it by `3`.

  Everything is stated on the extended reals; the two sides agree when every input entry is a real number
  (`kval_eq_rval`): then every intermediate is real, `|g| + ε > 0`, and the laws used (a scalar through a finite
  sum, `(√y)² = y`, `a / b = a · (1/b)`) hold.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float literals the two programs share, as the extended reals their words denote. -/
abbrev eps : EReal := Ideal.ofBits .f32 0x2B8CBCCC#32
abbrev alpha : EReal := Ideal.ofBits .f32 0x3ECCCCCD#32
abbrev two : EReal := Ideal.ofBits .f32 0x40000000#32
abbrev one : EReal := Ideal.ofBits .f32 0x3F800000#32
abbrev tau : EReal := Ideal.ofBits .f32 0x3FE00000#32
abbrev three : EReal := Ideal.ofBits .f32 0x40400000#32

/-- An extended real that is a real number. -/
def IsReal (v : EReal) : Prop := ∃ r : ℝ, v = (r : EReal)

/-- A head's embedding of one query row: `(x · W) k = ∑ d, x d · W d k`. -/
def emb (x : Fin 512 → EReal) (W : Fin 512 → Fin 128 → EReal) : Fin 128 → EReal := fun k => ∑ d, x d * W d k
/-- The squared length of a row. -/
def sq (e : Fin 128 → EReal) : EReal := ∑ k, e k * e k
/-- The inner product of two rows. -/
def dot (a b : Fin 128 → EReal) : EReal := ∑ k, a k * b k
/-- The regularised length `|e| + ε`. -/
def nrm (e : Fin 128 → EReal) : EReal := Ideal.sqrt (sq e) + eps
/-- The acceptance threshold: `s` when `s ≥ α`, else `0`. -/
def thr (s : EReal) : EReal := Scalar.select (Ideal.cmp .oge s alpha) s 0
/-- A row divided by its regularised length (both programs normalise the QUERY embeddings this way). -/
def unit (e : Fin 128 → EReal) : Fin 128 → EReal := fun k => Ideal.div (e k) (nrm e)

/-! ## The kernel's arrangement -/

/-- Head 1 as the kernel computes it. -/
def kcer (e g : Fin 128 → EReal) : EReal :=
  thr (Ideal.exp (0 - ((max (sq e + sq g - two * dot e g) 0 + eps) * ((16 / 49 : ℝ) : EReal))
                    * ((max (sq e + sq g - two * dot e g) 0 + eps) * ((16 / 49 : ℝ) : EReal))))
/-- A gallery row times the reciprocal of its regularised length. -/
def kunit (g : Fin 128 → EReal) : Fin 128 → EReal := fun k => g k * Ideal.div one (nrm g)
/-- One score from the three heads' rows, the kernel's way: `e` is head 1's embedding, `q2`, `q3` the NORMALISED
    embeddings of heads 2 and 3 (the first pallas_call's outputs), `g1 g2 g3` the gallery rows. -/
def kcell (e q2 q3 g1 g2 g3 : Fin 128 → EReal) : EReal :=
  (kcer e g1 + dot q2 (kunit g2) + dot q3 (kunit g3)) * ((1 / 3 : ℝ) : EReal)
/-- One score from the query's feature row, the three weight matrices and the three gallery rows. -/
def kval (x : Fin 512 → EReal) (W1 W2 W3 : Fin 512 → Fin 128 → EReal) (g1 g2 g3 : Fin 128 → EReal) : EReal :=
  kcell (emb x W1) (unit (emb x W2)) (unit (emb x W3)) g1 g2 g3

/-! ## The reference's arrangement -/

/-- Head 1 as the reference computes it: the scalar `2` sits inside the inner product, the distance is rooted,
    divided by `τ` and raised to the fourth power by two squarings. -/
def rcer (e g : Fin 128 → EReal) : EReal :=
  thr (Ideal.exp (-(
    ((Ideal.div (Ideal.sqrt (max (sq e + sq g - dot (fun k => two * e k) g) 0 + eps)) tau)
      * (Ideal.div (Ideal.sqrt (max (sq e + sq g - dot (fun k => two * e k) g) 0 + eps)) tau))
    * ((Ideal.div (Ideal.sqrt (max (sq e + sq g - dot (fun k => two * e k) g) 0 + eps)) tau)
      * (Ideal.div (Ideal.sqrt (max (sq e + sq g - dot (fun k => two * e k) g) 0 + eps)) tau)))))
/-- One score the reference's way, from the three heads' (unnormalised) embeddings and the gallery rows. -/
def rcell (e1 e2 e3 g1 g2 g3 : Fin 128 → EReal) : EReal :=
  Ideal.div (rcer e1 g1 + dot (unit e2) (unit g2) + dot (unit e3) (unit g3)) three
def rval (x : Fin 512 → EReal) (W1 W2 W3 : Fin 512 → Fin 128 → EReal) (g1 g2 g3 : Fin 128 → EReal) : EReal :=
  rcell (emb x W1) (emb x W2) (emb x W3) g1 g2 g3

/-! ## The whole result array -/

/-- Row `i` of a rank-2 array. -/
abbrev row {n m : Nat} (A : (⟨2, ![n, m]⟩ : Shape).Idx → EReal) (i : Fin n) : Fin m → EReal := fun k => A (ix2 i k)
/-- A rank-2 array as a function of its two coordinates. -/
abbrev mat {n m : Nat} (A : (⟨2, ![n, m]⟩ : Shape).Idx → EReal) : Fin n → Fin m → EReal := fun d k => A (ix2 d k)

/-- The kernel's result array as ONE function of the seven argument arrays. -/
def KG (x : (⟨2, ![1024, 512]⟩ : Shape).Idx → EReal) (W1 W2 W3 : (⟨2, ![512, 128]⟩ : Shape).Idx → EReal)
    (G1 G2 G3 : (⟨2, ![20000, 128]⟩ : Shape).Idx → EReal) : (⟨2, ![1024, 20000]⟩ : Shape).Idx → EReal :=
  fun ij => kval (row x (ij 0)) (mat W1) (mat W2) (mat W3) (row G1 (ij 1)) (row G2 (ij 1)) (row G3 (ij 1))
/-- The reference's result array as one function of the same arrays. -/
def RG (x : (⟨2, ![1024, 512]⟩ : Shape).Idx → EReal) (W1 W2 W3 : (⟨2, ![512, 128]⟩ : Shape).Idx → EReal)
    (G1 G2 G3 : (⟨2, ![20000, 128]⟩ : Shape).Idx → EReal) : (⟨2, ![1024, 20000]⟩ : Shape).Idx → EReal :=
  fun ij => rval (row x (ij 0)) (mat W1) (mat W2) (mat W3) (row G1 (ij 1)) (row G2 (ij 1)) (row G3 (ij 1))

end Cert.Spec

end
-- ==== Proof.PayIdx.lean ====
/-
  The kernel's stored values read at one index, on the extended reals, as the row-level closed forms of `Spec.lean`.

  First call: `(x · W) (i, k) = ∑ d, x (i, d) · W (d, k)`, and for heads 2 and 3 that row divided by its regularised
  length `√(∑ k, e k²) + ε`. Second call, per gallery block: the radial head from the two squared lengths and the inner
  product, the two cosine heads as inner products of the query's normalised row with the gallery row scaled by the
  reciprocal of its regularised length, and the mean as the sum of the three times `1/3`.

  Each operation that is not pointwise gets one small reading: a vector of row sums viewed as a column or as a row, a
  column or a row spread over a matrix, a row's sum over the lanes, and the two matrix products as sums over the
  contracted coordinate.
-/
import proofs.«153459_g75874892251866_cont_9to1_m_1391_4_alg».proof.Proof.Gen.KernelIdeal.Skeleton
import proofs.«153459_g75874892251866_cont_9to1_m_1391_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayIdx

open Cert.KernelIdeal Cert.KernelIdeal.Gen Idealize.ShloMosaic Idealize.ShloMosaic.ValueIdx

/-! ## Layout operations at an index: a column of sums and its broadcasts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum over the lanes -/

/-- The lane sum of a `[1024, 128]` array at row `i` is the sum over `k` of the row's entries. -/
theorem laneSum1024 (v : FVec Ideal S1024x128 .f32) (h : S1024x128.Reduces [1] S1024) (hφ : FKind.Formats .f32)
    (hacc : (0x00000000#32 : BitVec 32) = 0x00000000#32) (i : Fin 1024) :
    multiReduction (F := Ideal) .add [1] S1024 v 0x00000000#32 h hφ hacc (ix1 i) = ∑ k : Fin 128, v (ix2 i k) := by
  refine (Ideal.multiReduction_add_single v 0x00000000#32 h hφ hacc (ix1 i)).trans ?_
  refine Finset.sum_congr rfl fun k _ => congrArg v ?_
  funext a
  match a with
  | ⟨0, _⟩ => rfl
  | ⟨1, _⟩ => rfl

/-- The lane sum of a `[2048, 128]` array at row `j` is the sum over `k` of the row's entries. -/
theorem laneSum2048 (v : FVec Ideal S2048x128 .f32) (h : S2048x128.Reduces [1] S2048) (hφ : FKind.Formats .f32)
    (hacc : (0x00000000#32 : BitVec 32) = 0x00000000#32) (j : Fin 2048) :
    multiReduction (F := Ideal) .add [1] S2048 v 0x00000000#32 h hφ hacc (ix1 j) = ∑ k : Fin 128, v (ix2 j k) := by
  refine (Ideal.multiReduction_add_single v 0x00000000#32 h hφ hacc (ix1 j)).trans ?_
  refine Finset.sum_congr rfl fun k _ => congrArg v ?_
  funext a
  match a with
  | ⟨0, _⟩ => rfl
  | ⟨1, _⟩ => rfl

/-! ## The two matrix products at an index

The first contracts the left operand's axis 1 with the right operand's axis 0 (`x · W`); the second contracts
axis 1 of both (`a · bᵀ`). In each, the operand indices at an output index and a contraction coordinate are read
axis by axis. -/

theorem lhsA_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhsA_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhsA_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhsA_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- `x · W` into a zero accumulator, at `(i, k)`: `∑ d, x (i, d) · W (d, k)`. -/
theorem matmulA_apply (x : FVec Ideal S1024x512 .f32) (w : FVec Ideal S512x128 .f32) (i : Fin 1024) (k : Fin 128) :
    matmul (F := Ideal) dot_S1024x512_S512x128_S1024x128_1_0_0_1_n_n none x w (constant (F := Ideal) S1024x128 .f32 0x00000000#32) (ix2 i k)
      = ∑ d : Fin 512, x (ix2 i d) * w (ix2 d k) := by
  refine (Ideal.matmul_constant_zero_apply dot_S1024x512_S512x128_S1024x128_1_0_0_1_n_n none x w (ix2 i k)).trans ?_
  rw [← Equiv.sum_comp (contrEquiv1 dot_S1024x512_S512x128_S1024x128_1_0_0_1_n_n 512 rfl rfl).symm]
  refine Finset.sum_congr rfl fun d _ => ?_
  have hk := contrEquiv1_symm_val dot_S1024x512_S512x128_S1024x128_1_0_0_1_n_n 512 rfl rfl d
  have el : dot_S1024x512_S512x128_S1024x128_1_0_0_1_n_n.lhsIdx (ix2 i k) ((contrEquiv1 dot_S1024x512_S512x128_S1024x128_1_0_0_1_n_n 512 rfl rfl).symm d) = ix2 i d := funext fun a => Fin.ext (by
    match a with
    | ⟨0, _⟩ => exact lhsA_0 _ _
    | ⟨1, _⟩ => exact (lhsA_1 _ _).trans hk)
  have er : dot_S1024x512_S512x128_S1024x128_1_0_0_1_n_n.rhsIdx (ix2 i k) ((contrEquiv1 dot_S1024x512_S512x128_S1024x128_1_0_0_1_n_n 512 rfl rfl).symm d) = ix2 d k := funext fun a => Fin.ext (by
    match a with
    | ⟨0, _⟩ => exact (rhsA_0 _ _).trans hk
    | ⟨1, _⟩ => exact rhsA_1 _ _)
  rw [el, er]

theorem lhsB_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhsB_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhsB_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhsB_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- `a · bᵀ` into a zero accumulator, at `(i, j)`: `∑ k, a (i, k) · b (j, k)`. -/
theorem matmulB_apply (a : FVec Ideal S1024x128 .f32) (b : FVec Ideal S2048x128 .f32) (i : Fin 1024) (j : Fin 2048) :
    matmul (F := Ideal) dot_S1024x128_S2048x128_S1024x2048_1_1_0_0_n_n none a b (constant (F := Ideal) S1024x2048 .f32 0x00000000#32) (ix2 i j)
      = ∑ k : Fin 128, a (ix2 i k) * b (ix2 j k) := by
  refine (Ideal.matmul_constant_zero_apply dot_S1024x128_S2048x128_S1024x2048_1_1_0_0_n_n none a b (ix2 i j)).trans ?_
  rw [← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 i j) ((contrEquiv1 dot_S1024x128_S2048x128_S1024x2048_1_1_0_0_n_n 128 rfl rfl).symm k) = ix2 i k := funext fun c => Fin.ext (by
    match c with
    | ⟨0, _⟩ => exact lhsB_0 _ _
    | ⟨1, _⟩ => exact (lhsB_1 _ _).trans hk)
  have er : dot_S1024x128_S2048x128_S1024x2048_1_1_0_0_n_n.rhsIdx (ix2 i j) ((contrEquiv1 dot_S1024x128_S2048x128_S1024x2048_1_1_0_0_n_n 128 rfl rfl).symm k) = ix2 j k := funext fun c => Fin.ext (by
    match c with
    | ⟨0, _⟩ => exact rhsB_0 _ _
    | ⟨1, _⟩ => exact (rhsB_1 _ _).trans hk)
  rw [el, er]

/-! ## The first call: the embedding, and the embedding divided by its regularised length -/

/-- Head 1's embedding at `(i, k)`: `∑ d, x (i, d) · W (d, k)`. -/
theorem emb_apply (x : FVec Ideal S1024x512 .f32) (w : FVec Ideal S512x128 .f32) (i : Fin 1024) (k : Fin 128) :
    k0_pay1 (F := Ideal) x w (ix2 i k) = Cert.Spec.emb (Cert.Spec.row x i) (Cert.Spec.mat w) k := by
  unfold k0_pay1
  exact matmulA_apply x w i k

/-- A `[1024, 128]` array divided, row by row, by the root of the row's sum of squares plus `ε`. -/
theorem rowUnit_apply (v : FVec Ideal S1024x128 .f32) (i : Fin 1024) (k : Fin 128) :
    divf v (broadcastTo S1024x128 (addf (sqrt (shapeCast S1024x1
        (multiReduction (F := Ideal) .add [1] S1024 (mulf v v) 0x00000000#32 reduces_S1024x128_S1024 (.inl rfl) rfl)
        shapeCasts_S1024_S1024x1)) (broadcast S1024x1 (Scalar.ofBits (F := Ideal) .f32 0x2B8CBCCC#32)))
        broadcasts_S1024x1_S1024x128) (ix2 i k)
      = Cert.Spec.unit (Cert.Spec.row v i) k := by
  refine congrArg (Ideal.div (v (ix2 i k))) ?_
  refine (broadcastTo_a1_ab_apply _ broadcasts_S1024x1_S1024x128 i k).trans ?_
  refine congrArg (fun t => Ideal.sqrt t + Cert.Spec.eps) ?_
  refine (shapeCast_a_a1_apply _ shapeCasts_S1024_S1024x1 i 0).trans ?_
  exact laneSum1024 _ _ _ _ i

/-- Head 2's normalised embedding at `(i, k)`. -/
theorem unit2_apply (x : FVec Ideal S1024x512 .f32) (w : FVec Ideal S512x128 .f32) (i : Fin 1024) (k : Fin 128) :
    k0_pay2 (F := Ideal) x w (ix2 i k) = Cert.Spec.unit (Cert.Spec.emb (Cert.Spec.row x i) (Cert.Spec.mat w)) k := by
  unfold k0_pay2
  refine (rowUnit_apply _ i k).trans ?_
  exact congrArg (fun e => Cert.Spec.unit e k) (funext fun k' => matmulA_apply x w i k')

/-- Head 3's normalised embedding at `(i, k)`. -/
theorem unit3_apply (x : FVec Ideal S1024x512 .f32) (w : FVec Ideal S512x128 .f32) (i : Fin 1024) (k : Fin 128) :
    k0_pay3 (F := Ideal) x w (ix2 i k) = Cert.Spec.unit (Cert.Spec.emb (Cert.Spec.row x i) (Cert.Spec.mat w)) k := by
  unfold k0_pay3
  refine (rowUnit_apply _ i k).trans ?_
  exact congrArg (fun e => Cert.Spec.unit e k) (funext fun k' => matmulA_apply x w i k')

/-! ## The second call: the reciprocal length of a gallery row, a cosine head, the radial head, and the mean -/

/-- The reciprocal of a gallery row's regularised length, spread over the row. -/
theorem recipCol_apply (g : FVec Ideal S2048x128 .f32) (j : Fin 2048) (k : Fin 128) :
    broadcastTo S2048x128 (divf (broadcast S2048x1 (Scalar.ofBits (F := Ideal) .f32 0x3F800000#32))
        (addf (sqrt (shapeCast S2048x1
          (multiReduction (F := Ideal) .add [1] S2048 (mulf g g) 0x00000000#32 reduces_S2048x128_S2048 (.inl rfl) rfl)
          shapeCasts_S2048_S2048x1)) (broadcast S2048x1 (Scalar.ofBits (F := Ideal) .f32 0x2B8CBCCC#32))))
        broadcasts_S2048x1_S2048x128 (ix2 j k)
      = Ideal.div Cert.Spec.one (Cert.Spec.nrm (Cert.Spec.row g j)) := by
  refine (broadcastTo_a1_ab_apply _ broadcasts_S2048x1_S2048x128 j k).trans ?_
  refine congrArg (fun t => Ideal.div Cert.Spec.one (Ideal.sqrt t + Cert.Spec.eps)) ?_
  refine (shapeCast_a_a1_apply _ shapeCasts_S2048_S2048x1 j 0).trans ?_
  exact laneSum2048 _ _ _ _ j

/-- The carried reciprocal column of head 2's gallery block. -/
theorem recip_apply (g : FVec Ideal S2048x128 .f32) (j : Fin 2048) (k : Fin 128) :
    k1_pay3 (F := Ideal) g (ix2 j k) = Ideal.div Cert.Spec.one (Cert.Spec.nrm (Cert.Spec.row g j)) := by
  unfold k1_pay3
  exact recipCol_apply g j k

/-- A cosine head at `(i, j)`: the query's normalised row against the gallery row scaled by its reciprocal length. -/
theorem cos_apply (q : FVec Ideal S1024x128 .f32) (g r : FVec Ideal S2048x128 .f32) (i : Fin 1024) (j : Fin 2048)
    (hr : ∀ k : Fin 128, r (ix2 j k) = Ideal.div Cert.Spec.one (Cert.Spec.nrm (Cert.Spec.row g j))) :
    matmul (F := Ideal) dot_S1024x128_S2048x128_S1024x2048_1_1_0_0_n_n none
        (shapeCast S1024x128 q shapeCasts_S1024x128_S1024x128) (mulf g r)
        (constant (F := Ideal) S1024x2048 .f32 0x00000000#32) (ix2 i j)
      = Cert.Spec.dot (Cert.Spec.row q i) (Cert.Spec.kunit (Cert.Spec.row g j)) := by
  rw [shapeCast_self]
  refine (matmulB_apply q (mulf g r) i j).trans ?_
  refine Finset.sum_congr rfl fun k _ => ?_
  exact congrArg (fun t => q (ix2 i k) * (g (ix2 j k) * t)) (hr k)

/-- The radial head as a function of the two squared lengths `a`, `b`, the inner product `d`, the scale `c` and the
    zero `z` the programs write as a word. -/
def cerOf (a b d c z : EReal) : EReal :=
  Scalar.select
    (Ideal.cmp .oge (Ideal.exp (z - ((max (a + b - Cert.Spec.two * d) z + Cert.Spec.eps) * c)
        * ((max (a + b - Cert.Spec.two * d) z + Cert.Spec.eps) * c))) Cert.Spec.alpha)
    (Ideal.exp (z - ((max (a + b - Cert.Spec.two * d) z + Cert.Spec.eps) * c)
        * ((max (a + b - Cert.Spec.two * d) z + Cert.Spec.eps) * c))) z

theorem cerOf_congr {a a' b b' d d' c c' z z' : EReal} (ha : a = a') (hb : b = b') (hd : d = d') (hc : c = c')
    (hz : z = z') : cerOf a b d c z = cerOf a' b' d' c' z' := by
  subst ha hb hd hc hz; rfl

/-- The named scale of the radial head is the rational `16/49`. -/
theorem c_16_49 : Named.named (F := Ideal) Cert.KernelIdeal.κ "c_16_49" (φ := .f32) 0x3EA72F05#32 = ((16 / 49 : ℝ) : EReal) :=
  IdealRules.named_const.ideal_named_scalar _ _ _ _ rfl

/-- The named factor of the mean is the rational `1/3`. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The radial head at `(i, j)`. -/
theorem cer_apply (X0 : FVec Ideal S1024x128 .f32) (X3 : FVec Ideal S2048x128 .f32) (i : Fin 1024) (j : Fin 2048) :
    k1_pay2 (F := Ideal) X0 X3 (ix2 i j) = Cert.Spec.kcer (Cert.Spec.row X0 i) (Cert.Spec.row X3 j) := by
  have hq : broadcastTo S1024x2048 (shapeCast S1024x1
      (multiReduction (F := Ideal) .add [1] S1024 (mulf X0 X0) 0x00000000#32 reduces_S1024x128_S1024 (.inl rfl) rfl)
      shapeCasts_S1024_S1024x1) broadcasts_S1024x1_S1024x2048 (ix2 i j) = Cert.Spec.sq (Cert.Spec.row X0 i) :=
    (broadcastTo_a1_ab_apply _ broadcasts_S1024x1_S1024x2048 i j).trans
      ((shapeCast_a_a1_apply _ shapeCasts_S1024_S1024x1 i 0).trans (laneSum1024 _ _ _ _ i))
  have hg : broadcastTo S1024x2048 (shapeCast S1x2048
      (multiReduction (F := Ideal) .add [1] S2048 (mulf X3 X3) 0x00000000#32 reduces_S2048x128_S2048 (.inl rfl) rfl)
      shapeCasts_S2048_S1x2048) broadcasts_S1x2048_S1024x2048 (ix2 i j) = Cert.Spec.sq (Cert.Spec.row X3 j) :=
    (broadcastTo_1b_ab_apply _ broadcasts_S1x2048_S1024x2048 i j).trans
      ((shapeCast_a_1a_apply _ shapeCasts_S2048_S1x2048 0 j).trans (laneSum2048 _ _ _ _ j))
  have hd : matmul (F := Ideal) dot_S1024x128_S2048x128_S1024x2048_1_1_0_0_n_n none X0 X3
      (constant (F := Ideal) S1024x2048 .f32 0x00000000#32) (ix2 i j)
      = Cert.Spec.dot (Cert.Spec.row X0 i) (Cert.Spec.row X3 j) := matmulB_apply X0 X3 i j
  unfold k1_pay2
  rw [shapeCast_self]
  exact cerOf_congr hq hg hd c_16_49 Ideal.ofBits_zero_f32

/-- ONE SCORE: the three heads' sum times `1/3`, at `(i, j)`. -/
theorem cell_apply (X0 X1 X2 : FVec Ideal S1024x128 .f32) (X3 X4 X5 : FVec Ideal S2048x128 .f32) (i : Fin 1024) (j : Fin 2048) :
    k1_pay1 (F := Ideal) (k1_pay2 X0 X3) X4 (k1_pay3 X4) X1 X5 X2 (ix2 i j)
      = Cert.Spec.kcell (Cert.Spec.row X0 i) (Cert.Spec.row X1 i) (Cert.Spec.row X2 i) (Cert.Spec.row X3 j) (Cert.Spec.row X4 j) (Cert.Spec.row X5 j) := by
  have h1 := cer_apply X0 X3 i j
  have h2 := cos_apply X1 X4 (k1_pay3 (F := Ideal) X4) i j (fun k => recip_apply X4 j k)
  have h3 := cos_apply X2 X5 _ i j (fun k => recipCol_apply X5 j k)
  unfold k1_pay1 Cert.Spec.kcell
  exact congrArg₂ (· * ·) (congrArg₂ (· + ·) (congrArg₂ (· + ·) h1 h2) h3) inv_3

/-- Column `j` of the result depends on row `j` of each gallery block only. -/
theorem cell_congr (X0 X1 X2 : FVec Ideal S1024x128 .f32) (X3 X3' X4 X4' X5 X5' : FVec Ideal S2048x128 .f32) (i : Fin 1024) (j : Fin 2048)
    (h3 : ∀ k : Fin 128, X3 (ix2 j k) = X3' (ix2 j k)) (h4 : ∀ k : Fin 128, X4 (ix2 j k) = X4' (ix2 j k)) (h5 : ∀ k : Fin 128, X5 (ix2 j k) = X5' (ix2 j k)) :
    k1_pay1 (F := Ideal) (k1_pay2 X0 X3) X4 (k1_pay3 X4) X1 X5 X2 (ix2 i j) = k1_pay1 (F := Ideal) (k1_pay2 X0 X3') X4' (k1_pay3 X4') X1 X5' X2 (ix2 i j) := by
  rw [cell_apply, cell_apply]
  have e3 : Cert.Spec.row X3 j = Cert.Spec.row X3' j := funext h3
  have e4 : Cert.Spec.row X4 j = Cert.Spec.row X4' j := funext h4
  have e5 : Cert.Spec.row X5 j = Cert.Spec.row X5' j := funext h5
  rw [e3, e4, e5]

end Cert.KernelIdeal.PayIdx

end
-- ==== Proof.KI.Region1Value.lean ====
/-
  The second pallas_call's body obligation with EVERY window named, at the Ideal instance.

  At the last grid point the gallery buffers hold unnamed words on the 480 rows past the arrays' end. Column `j` of
  the score block is a function of row `j` of each gallery block alone (an inner product against that row, that
  row's squared length), so on the columns the write-back moves — those inside the array — the block the body stores
  is the block computed from zero-filled buffers, whatever the unnamed words are.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import proofs.«153459_g75874892251866_cont_9to1_m_1391_4_alg».proof.Proof.KI.Region1
import proofs.«153459_g75874892251866_cont_9to1_m_1391_4_alg».proof.Proof.PayIdx
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A fetch's fill takes the block's value on the indices the transfer moves, whatever the buffer held elsewhere. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- Column `p 1` of the score block is a function of row `p 1` of each gallery block: gallery blocks that agree on
    that row give score blocks that agree at `p`. -/
theorem score_at_congr (X0 X1 X2 : FVec Ideal S1024x128 .f32) (B3 B3' B4 B4' B5 B5' : FVec Ideal S2048x128 .f32)
    (p : S1024x2048.Idx)
    (h3 : ∀ q : S2048x128.Idx, (q 0).val = (p 1).val → B3 q = B3' q)
    (h4 : ∀ q : S2048x128.Idx, (q 0).val = (p 1).val → B4 q = B4' q)
    (h5 : ∀ q : S2048x128.Idx, (q 0).val = (p 1).val → B5 q = B5' q) :
    k1_pay1 (F := Ideal) (k1_pay2 X0 B3) B4 (k1_pay3 B4) X1 B5 X2 p
      = k1_pay1 (F := Ideal) (k1_pay2 X0 B3') B4' (k1_pay3 B4') X1 B5' X2 p := by
  obtain ⟨i, j, rfl⟩ : ∃ (i : Fin 1024) (j : Fin 2048), p = ValueIdx.ix2 i j := ⟨p 0, p 1, ValueIdx.eq_ix2 p⟩
  exact PayIdx.cell_congr X0 X1 X2 B3 B3' B4 B4' B5 B5' i j (fun k => h3 _ rfl) (fun k => h4 _ rfl) (fun k => h5 _ rfl)

/-- The rows a gallery window's fetch moves are the columns the score window's write-back moves, and a gallery row is
    moved whole: at every point of the grid. -/
theorem xsize1_3 : ∀ t : Fin cfg1.N, (cfg1.win 3).xsize (cfg1.grid.coords t) (0 : Fin 2) = (cfg1.win 6).xsize (cfg1.grid.coords t) (1 : Fin 2)
    ∧ (cfg1.win 3).xsize (cfg1.grid.coords t) (1 : Fin 2) = 128 :=
  (by decide +kernel : ∀ t : Fin grid1.N, win1_3.xsize (grid1.coords t) (0 : Fin 2) = win1_6.xsize (grid1.coords t) (1 : Fin 2)
    ∧ win1_3.xsize (grid1.coords t) (1 : Fin 2) = 128)
theorem xsize1_4 : ∀ t : Fin cfg1.N, (cfg1.win 4).xsize (cfg1.grid.coords t) (0 : Fin 2) = (cfg1.win 6).xsize (cfg1.grid.coords t) (1 : Fin 2)
    ∧ (cfg1.win 4).xsize (cfg1.grid.coords t) (1 : Fin 2) = 128 :=
  (by decide +kernel : ∀ t : Fin grid1.N, win1_4.xsize (grid1.coords t) (0 : Fin 2) = win1_6.xsize (grid1.coords t) (1 : Fin 2)
    ∧ win1_4.xsize (grid1.coords t) (1 : Fin 2) = 128)
theorem xsize1_5 : ∀ t : Fin cfg1.N, (cfg1.win 5).xsize (cfg1.grid.coords t) (0 : Fin 2) = (cfg1.win 6).xsize (cfg1.grid.coords t) (1 : Fin 2)
    ∧ (cfg1.win 5).xsize (cfg1.grid.coords t) (1 : Fin 2) = 128 :=
  (by decide +kernel : ∀ t : Fin grid1.N, win1_5.xsize (grid1.coords t) (0 : Fin 2) = win1_6.xsize (grid1.coords t) (1 : Fin 2)
    ∧ win1_5.xsize (grid1.coords t) (1 : Fin 2) = 128)

/-- A row of a gallery block below the score window's moved column count is moved by the gallery window's fetch. -/
theorem moved1_3 (t : Fin cfg1.N) (y : ((cfg1.win 6).xblock (cfg1.grid.coords t)).Idx) (q : S2048x128.Idx)
    (hq : (q 0).val = (y 1).val) : (cfg1.win 3).moved (cfg1.grid.coords t) q = true := by
  obtain ⟨e0, e1⟩ := xsize1_3 t
  refine ((cfg1.win 3).moved_iff (cfg1.grid.coords t) q).mpr ?_
  show ∀ a : Fin 2, (q a).val < (cfg1.win 3).xsize (cfg1.grid.coords t) a
  refine Fin.forall_fin_two.mpr ⟨?_, ?_⟩
  · rw [e0, hq]; exact (y 1).isLt
  · rw [e1]; exact (q 1).isLt

theorem moved1_4 (t : Fin cfg1.N) (y : ((cfg1.win 6).xblock (cfg1.grid.coords t)).Idx) (q : S2048x128.Idx)
    (hq : (q 0).val = (y 1).val) : (cfg1.win 4).moved (cfg1.grid.coords t) q = true := by
  obtain ⟨e0, e1⟩ := xsize1_4 t
  refine ((cfg1.win 4).moved_iff (cfg1.grid.coords t) q).mpr ?_
  show ∀ a : Fin 2, (q a).val < (cfg1.win 4).xsize (cfg1.grid.coords t) a
  refine Fin.forall_fin_two.mpr ⟨?_, ?_⟩
  · rw [e0, hq]; exact (y 1).isLt
  · rw [e1]; exact (q 1).isLt

theorem moved1_5 (t : Fin cfg1.N) (y : ((cfg1.win 6).xblock (cfg1.grid.coords t)).Idx) (q : S2048x128.Idx)
    (hq : (q 0).val = (y 1).val) : (cfg1.win 5).moved (cfg1.grid.coords t) q = true := by
  obtain ⟨e0, e1⟩ := xsize1_5 t
  refine ((cfg1.win 5).moved_iff (cfg1.grid.coords t) q).mpr ?_
  show ∀ a : Fin 2, (q a).val < (cfg1.win 5).xsize (cfg1.grid.coords t) a
  refine Fin.forall_fin_two.mpr ⟨?_, ?_⟩
  · rw [e0, hq]; exact (y 1).isLt
  · rw [e1]; exact (q 1).isLt

/-- THE KEY FACT: on the columns the write-back moves, the score block does not depend on what the gallery buffers
    held past the arrays' end. -/
theorem cut_outblk1 (V : (c : Dev nD) → (b : Ref sig .tc) → Buf (Elt Ideal) ((c : Thread nD τ).loc b)) (c : Dev nD) (t : Fin cfg1.N)
    (d3 d4 d5 : S2048x128.Idx → Elt Ideal .f32) :
    (cfg1.win 6).cut (cfg1.grid.coords t) (outblk1 (F := Ideal) V c t d3 d4 d5)
      = (cfg1.win 6).cut (cfg1.grid.coords t) (outblk1 (F := Ideal) V c t (fun _ => zw) (fun _ => zw) (fun _ => zw)) := by
  funext y
  show outblk1 (F := Ideal) V c t d3 d4 d5 ((cfg1.win 6).xinj (cfg1.grid.coords t) y)
    = outblk1 (F := Ideal) V c t (fun _ => zw) (fun _ => zw) (fun _ => zw) ((cfg1.win 6).xinj (cfg1.grid.coords t) y)
  unfold outblk1
  refine score_at_congr _ _ _ _ _ _ _ _ _ _ (fun q hq => ?_) (fun q hq => ?_) (fun q hq => ?_)
  · exact fill_eq_of_moved (cfg1.win 3) _ _ _ _ (moved1_3 t y q hq)
  · exact fill_eq_of_moved (cfg1.win 4) _ _ _ _ (moved1_4 t y q hq)
  · exact fill_eq_of_moved (cfg1.win 5) _ _ _ _ (moved1_5 t y q hq)

/-- A gallery buffer, cut to the rows its fetch moves and filled back over `d`, is the fetched buffer over `d`. -/
theorem fill_cut_fblk1 (V : (c : Dev nD) → (b : Ref sig .tc) → Buf (Elt F) ((c : Thread nD τ).loc b)) (c : Dev nD) (w : Fin cfg1.W)
    (t : Fin cfg1.N) (d d' : (cfg1.win w).block.Idx → Elt F (cfg1.win w).elt) :
    (cfg1.win w).fill (cfg1.grid.coords t) d ((cfg1.win w).cut (cfg1.grid.coords t) (fblk1 V c w t d')) = fblk1 V c w t d := by
  unfold fblk1; rw [Window.cut_fill]

/-- The score block over any unnamed rows is, on the columns the write-back moves, the block over zero rows: filling
    the latter's moved part back over the former gives the former. -/
theorem fill_cut_outblk1 (V : (c : Dev nD) → (b : Ref sig .tc) → Buf (Elt Ideal) ((c : Thread nD τ).loc b)) (c : Dev nD) (t : Fin cfg1.N)
    (d3 d4 d5 : S2048x128.Idx → Elt Ideal .f32) :
    (cfg1.win 6).fill (cfg1.grid.coords t) (outblk1 (F := Ideal) V c t d3 d4 d5)
        ((cfg1.win 6).cut (cfg1.grid.coords t) (outblk1 (F := Ideal) V c t (fun _ => zw) (fun _ => zw) (fun _ => zw)))
      = outblk1 (F := Ideal) V c t d3 d4 d5 :=
  (cfg1.win 6).fill_congr_cut (cfg1.grid.coords t) (cut_outblk1 V c t d3 d4 d5)

set_option maxHeartbeats 1000000 in
/-- The body at any point, every window named: the body's step, its score buffer taken at whatever it holds, then the
    embedding buffers as they are, each gallery buffer on the rows its fetch moves, and the score buffer on the columns
    its write-back moves, where it is the block over zero rows. -/
theorem sound_body1_value (V : (c : Dev nD) → (b : Ref sig .tc) → Buf (Elt Ideal) ((c : Thread nD τ).loc b)) (c : Dev nD) (t : Fin cfg1.N) :
    iprop((dat1 (F := Ideal) V c).Φ t.castSucc ∗ (dat1 (F := Ideal) V c).owesAt () t.castSucc
      ∗ (∃ d, owns (c : Thread nD τ) (st1_0 t) fullShare ((dat1 (F := Ideal) V c).before 0 t d))
      ∗ (∃ d, owns (c : Thread nD τ) (st1_1 t) fullShare ((dat1 (F := Ideal) V c).before 1 t d))
      ∗ (∃ d, owns (c : Thread nD τ) (st1_2 t) fullShare ((dat1 (F := Ideal) V c).before 2 t d))
      ∗ (∃ d, owns (c : Thread nD τ) (st1_3 t) fullShare ((dat1 (F := Ideal) V c).before 3 t d))
      ∗ (∃ d, owns (c : Thread nD τ) (st1_4 t) fullShare ((dat1 (F := Ideal) V c).before 4 t d))
      ∗ (∃ d, owns (c : Thread nD τ) (st1_5 t) fullShare ((dat1 (F := Ideal) V c).before 5 t d))
      ∗ (∃ d, owns (c : Thread nD τ) (st1_6 t) fullShare ((dat1 (F := Ideal) V c).before 6 t d)))
    ⊢ wp frame (wpE (defs₀ (F := Ideal)) Variants.none c none) Set.univ (bodyAt1 t) (fun _ =>
        iprop((dat1 (F := Ideal) V c).Φ t.succ ∗ (dat1 (F := Ideal) V c).owesAt () t.succ
          ∗ owns (c : Thread nD τ) (st1_0 t) fullShare ((dat1 (F := Ideal) V c).after 0 t)
          ∗ owns (c : Thread nD τ) (st1_1 t) fullShare ((dat1 (F := Ideal) V c).after 1 t)
          ∗ owns (c : Thread nD τ) (st1_2 t) fullShare ((dat1 (F := Ideal) V c).after 2 t)
          ∗ (∃ d, owns (c : Thread nD τ) (st1_3 t) fullShare ((cfg1.win 3).fill (cfg1.grid.coords t) d ((cfg1.win 3).cut (cfg1.grid.coords t) ((dat1 (F := Ideal) V c).after 3 t))))
          ∗ (∃ d, owns (c : Thread nD τ) (st1_4 t) fullShare ((cfg1.win 4).fill (cfg1.grid.coords t) d ((cfg1.win 4).cut (cfg1.grid.coords t) ((dat1 (F := Ideal) V c).after 4 t))))
          ∗ (∃ d, owns (c : Thread nD τ) (st1_5 t) fullShare ((cfg1.win 5).fill (cfg1.grid.coords t) d ((cfg1.win 5).cut (cfg1.grid.coords t) ((dat1 (F := Ideal) V c).after 5 t))))
          ∗ (∃ d, owns (c : Thread nD τ) (st1_6 t) fullShare ((cfg1.win 6).fill (cfg1.grid.coords t) d ((cfg1.win 6).cut (cfg1.grid.coords t) ((dat1 (F := Ideal) V c).after 6 t)))))) := by
  refine BIBase.Entails.trans ?_ ((body1_step (F := Ideal) V c t).trans (wp_mono _ _ _ fun _ => ?_))
  · iintro ⟨HΦ, Ho, H0, H1, H2, H3, H4, H5, ⟨%d, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [after1_0, after1_1, after1_2, after1_3, after1_4, after1_5, after1_6]
    iintro ⟨HΦ, Ho, H0, H1, H2, ⟨%d3, %d4, %d5, H3, H4, H5, H6⟩⟩
    isplitl [HΦ]; · iexact HΦ
    isplitl [Ho]; · iexact Ho
    isplitl [H0]; · iexact H0
    isplitl [H1]; · iexact H1
    isplitl [H2]; · iexact H2
    isplitl [H3]
    · iexists d3; rw [fill_cut_fblk1]; iexact H3
    isplitl [H4]
    · iexists d4; rw [fill_cut_fblk1]; iexact H4
    isplitl [H5]
    · iexists d5; rw [fill_cut_fblk1]; iexact H5
    iexists outblk1 (F := Ideal) V c t d3 d4 d5; rw [fill_cut_outblk1]; iexact H6

/-- THE VALUE'S BODY OBLIGATION: the library's loose obligation for the second pipeline's proof data, nothing
    forgotten, at the Ideal instance. -/
theorem body_obligation1_value (V : (c : Dev nD) → (b : Ref sig .tc) → Buf (Elt Ideal) ((c : Thread nD τ).loc b)) (c : Dev nD) :
    BodyObligationLoose (dat1 (F := Ideal) V c) (defs₀ (F := Ideal)) Variants.none () Set.univ := by
  intro t
  rw [bigSep_W1, bigSep_W1]
  exact sound_body1_value V c t

end Cert.KernelIdeal.Hand

end
-- ==== Proof.KI.Launch.lean ====
/-
  The idealized program's run, at the Ideal instance: every weakly fair execution of the two pallas_calls terminates
  without a fault; the score array ends holding what the second pipeline's ten write-backs leave and every argument
  array what it held at launch.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import proofs.«153459_g75874892251866_cont_9to1_m_1391_4_alg».proof.Proof.KI.Vals
import proofs.«153459_g75874892251866_cont_9to1_m_1391_4_alg».proof.Proof.KI.Region1Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

local notation "𝕄ᵢ" => MT nD τ sig Unit (Elt Ideal) ℕ (UR sig nD τ) ℕ

section Run

variable (m : (ℓ : Loc nD τ sig) → Buf (Elt Ideal) ℓ) (ρ : Dev nD → PrngReg)

/-! ## The proof data family and the thread state -/

/-- The prefetched tables' admissible contents: no pipeline has a table. -/
abbrev adm : (p : Fin 2) → (pcfgs (F := Ideal) p).Adm := fun p => (cfgs p).toPCfg_adm
/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄ᵢ := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄ᵢ := iprop(StableHlo.held (c : Thread nD τ) (Pipeline.ucRefs τ sig) (W4 m ρ c) ∗ ∃ r, prngReg c r)

/-! ## The regions as segments -/

set_option backward.isDefEq.respectTransparency.types false in
/-- THE FIRST CALL as a segment of the thread state. Entered with every unscoped buffer at the launch contents, left with
    them at `W2`: its windows are the arrays `x`, `W1`, `W2`, `W3` (read) and the three embedding arrays (written); the
    galleries and the score array bypass it. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  -- entry: the seven windows' arrays leave the unscoped buffers for the pipeline, the buffers that bypass the region
  -- wait in `Z`, the generator register in `X`; there is no prefetched table and the core owes nothing
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V0 m ρ c) fun _ => rfl
    rw [Pipeline.unscopedBufs_held] at hsplit
    iintro ⟨⟨Hbufs, Hprng, Hdue⟩, -, -⟩
    ihave H := hsplit $$ Hbufs
    icases H with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hbypass
  -- the invariant before the first point: the scoped buffers no window stages, and the generator register
  hin c := by
    rw [show (pdats m ρ 0 c).Φ 0 = Pipeline.ΦA spec0 c from rfl]; unfold Pipeline.ΦA
    iintro ⟨Hprng, -, Hscoped⟩
    isplitl [Hscoped]; · iexact Hscoped
    iexact Hprng
  -- after the last point it gives both back (there is no semaphore of the kernel's own)
  hout c := by
    rw [Pipeline.ownSems0_none, show (pdats m ρ 0 c).Φ (Fin.last _) = Pipeline.ΦA spec0 c from rfl]; unfold Pipeline.ΦA
    iintro ⟨Hscoped, Hprng⟩
    isplitl [Hprng]; · iexact Hprng
    isplitr; · iempintro
    iexact Hscoped
  -- exit: the arrays come back holding what the write-backs left and rejoin the buffers that bypassed the region:
  -- every unscoped buffer at the exit contents
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Harr, Hdue, Hprng, Hbypass⟩
    imodintro
    isplitl [Harr Hbypass]
    · iapply hjoin; isplitl [Harr] <;> iassumption
    isplitl [Hprng]; · iexact Hprng
    unfold Pipeline.Dat.owesAt Pipeline.owesWithin
    icases Hdue with ⟨%W, -, Hdue⟩; iexists W; iexact Hdue

set_option backward.isDefEq.respectTransparency.types false in
/-- THE SECOND CALL as a segment of the thread state. Entered with every unscoped buffer at `W2`, left with them at `W4`
    beside the generator register and the dues, at nothing: its windows are the three embedding arrays and the three
    galleries (read) and the score array (written); `x` and the weight matrices bypass it. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1_value (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  -- entry: the seven windows' arrays leave the unscoped buffers for the pipeline, the buffers that bypass the region
  -- wait in `Z`, the generator register in `X`; there is no prefetched table and the core owes nothing
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V2 m ρ c) fun _ => rfl
    rw [Pipeline.unscopedBufs_held] at hsplit
    iintro ⟨⟨Hbufs, Hprng, Hdue⟩, -, -⟩
    ihave H := hsplit $$ Hbufs
    icases H with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hbypass
  -- the invariant before the first point: the scoped buffers no window stages, and the generator register
  hin c := by
    rw [show (pdats m ρ 1 c).Φ 0 = Pipeline.ΦA spec1 c from rfl]; unfold Pipeline.ΦA
    iintro ⟨Hprng, -, Hscoped⟩
    isplitl [Hscoped]; · iexact Hscoped
    iexact Hprng
  -- after the last point it gives both back (there is no semaphore of the kernel's own)
  hout c := by
    rw [Pipeline.ownSems0_none, show (pdats m ρ 1 c).Φ (Fin.last _) = Pipeline.ΦA spec1 c from rfl]; unfold Pipeline.ΦA
    iintro ⟨Hscoped, Hprng⟩
    isplitl [Hprng]; · iexact Hprng
    isplitr; · iempintro
    iexact Hscoped
  -- exit: the arrays come back holding what the write-backs left and rejoin the buffers that bypassed the region:
  -- every unscoped buffer at the exit contents
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Harr, Hdue, Hprng, Hbypass⟩
    imodintro
    isplitl [Harr Hbypass Hprng]
    · isplitl [Harr Hbypass]
      · iapply hjoin; isplitl [Harr] <;> iassumption
      iexact Hprng
    unfold Pipeline.Dat.owesAt Pipeline.owesWithin
    icases Hdue with ⟨%W, -, Hdue⟩; iexists W; iexact Hdue

/-! ## @main as segments, and the launch -/

/-- @main's two segments in order: a region per pallas_call, no host stretch between them. -/
abbrev segs : List (Pipeline.Seg (pcfgs (F := Ideal)) adm (pdats m ρ) () defs₀ 𝒱₀ L lv) :=
  [ .region (reg0 m ρ), .region (reg1 m ρ) ]
/-- @main IS the run of the segments. -/
theorem main_run (c : Dev nD) : main (F := Ideal) c = Pipeline.Seg.run (segs m ρ) :=
  main_segs adm (pdats m ρ) () 𝒱₀ L lv (reg0 m ρ) (reg1 m ρ) c

end Run

set_option backward.isDefEq.respectTransparency.types false in
/-- THE RUN WITH THE RESULT NAMED. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (dat1 (F := Ideal) (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch's ghost state is the pipelines' cells and tokens, and no core takes a resource of its own
    (hu₀ := by
      iintro Hu; imodintro
      isplitl [Hu]
      · iapply (show (ownU (initOf (Pipeline.cells cfgs cellOf_inj) (Pipeline.launchToks cfgs cellOf_inj)) : sProp 𝕄ᵢ)
            ⊢ BI.own (emb₁ (initOf (Pipeline.cells cfgs cellOf_inj) (Pipeline.launchToks cfgs cellOf_inj))) from .rfl)
        iexact Hu
      iapply (show (BI.emp : sProp 𝕄ᵢ) ⊢ bigSep Finset.univ (fun _ : Dev nD => (BI.emp : sProp 𝕄ᵢ)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    -- the first thread state: every unscoped buffer at the launch memory, the generator register, the empty dues
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    -- the last thread state read against the final memory: every unscoped buffer holds its `W4` contents
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    -- the score array by `W4_main_v0`, each argument by its `W4_main_arg`
    (hQ := fun s h c =>
      ⟨(h c _ (mem_uc main_v0 (by decide))).trans (W4_main_v0 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.KI.KernelValue.lean ====
/-
  What the idealized kernel's score array holds at the end, as ONE function of the seven argument arrays.

  The first pallas_call writes three whole arrays: `E1 = x · W1` and the row-normalised `x · W2`, `x · W3`. The second
  writes the score array block by block: point `t` writes columns `2048 t … 2048 t + 2047` (the last point only the
  1568 columns inside the array), column `j` from row `j` of each gallery. The ten blocks' parts inside the array
  cover it, so the array ends holding `Spec.KG` of the arguments.
-/
import proofs.«153459_g75874892251866_cont_9to1_m_1391_4_alg».proof.Proof.Gen.KernelIdeal.Launch
import proofs.«153459_g75874892251866_cont_9to1_m_1391_4_alg».proof.Proof.Gen.KernelIdeal.Skeleton
import proofs.«153459_g75874892251866_cont_9to1_m_1391_4_alg».proof.Proof.Gen.KernelIdeal.Points
import proofs.«153459_g75874892251866_cont_9to1_m_1391_4_alg».proof.Proof.KI.Vals
import proofs.«153459_g75874892251866_cont_9to1_m_1391_4_alg».proof.Proof.PayIdx
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section FirstCall

variable (V : (c : Dev nD) → (b : Ref sig .tc) → Buf (Elt F) ((c : Thread nD τ).loc b)) (c : Dev nD)

/-! ## The first call: one point, whole arrays -/

/-- The first call's input blocks are the whole arrays `x`, `W1`, `W2`, `W3`. -/
theorem iblk0_0 (t : Fin cfg0.N) : (iblk0 V c 0 t : Vec F S1024x512 .f32) = V c main_arg0 :=
  Memref.read_access_unit_zero (Elt F) main_arg0 (funext fun a => Nat.zero_mul _) _ _
theorem iblk0_1 (t : Fin cfg0.N) : (iblk0 V c 1 t : Vec F S512x128 .f32) = V c main_arg1 :=
  Memref.read_access_unit_zero (Elt F) main_arg1 (funext fun a => Nat.zero_mul _) _ _
theorem iblk0_2 (t : Fin cfg0.N) : (iblk0 V c 2 t : Vec F S512x128 .f32) = V c main_arg2 :=
  Memref.read_access_unit_zero (Elt F) main_arg2 (funext fun a => Nat.zero_mul _) _ _
theorem iblk0_3 (t : Fin cfg0.N) : (iblk0 V c 3 t : Vec F S512x128 .f32) = V c main_arg3 :=
  Memref.read_access_unit_zero (Elt F) main_arg3 (funext fun a => Nat.zero_mul _) _ _

/-- Its three output arrays end holding the payloads of the whole input arrays: the one point's write-back covers each. -/
theorem arr0_4 : ((dat0 V c).arrAt 4 cfg0.N : Vec F S1024x128 .f32) = k0_pay1 (V c main_arg0) (V c main_arg1) := by
  refine (dat0 V c).arrAt_eq_of_cover 4 _ (fun t _ => ?_) (fun i => ⟨t0_0, flush0_4 _, ?_⟩)
  · show (cfg0.win 4).cut (grid0.coords t) ((dat0 V c).after 4 t) = _
    rw [after0_4, iblk0_0, iblk0_1]
    exact (Memref.read_access_unit_zero (Elt F) main_call0_v0_0 (funext fun a => Nat.zero_mul _) _ _).symm
  · show i ∈ ((View.whole main_call0_v0_0).slice (win0_4.rect t0_0)).set
    rw [View.set_slice_whole]
    exact View.mem_set_unit_zero (funext fun a => Nat.zero_mul _) _ i
theorem arr0_5 : ((dat0 V c).arrAt 5 cfg0.N : Vec F S1024x128 .f32) = k0_pay2 (V c main_arg0) (V c main_arg2) := by
  refine (dat0 V c).arrAt_eq_of_cover 5 _ (fun t _ => ?_) (fun i => ⟨t0_0, flush0_5 _, ?_⟩)
  · show (cfg0.win 5).cut (grid0.coords t) ((dat0 V c).after 5 t) = _
    rw [after0_5, iblk0_0, iblk0_2]
    exact (Memref.read_access_unit_zero (Elt F) main_call0_v0_1 (funext fun a => Nat.zero_mul _) _ _).symm
  · show i ∈ ((View.whole main_call0_v0_1).slice (win0_5.rect t0_0)).set
    rw [View.set_slice_whole]
    exact View.mem_set_unit_zero (funext fun a => Nat.zero_mul _) _ i
theorem arr0_6 : ((dat0 V c).arrAt 6 cfg0.N : Vec F S1024x128 .f32) = k0_pay3 (V c main_arg0) (V c main_arg3) := by
  refine (dat0 V c).arrAt_eq_of_cover 6 _ (fun t _ => ?_) (fun i => ⟨t0_0, flush0_6 _, ?_⟩)
  · show (cfg0.win 6).cut (grid0.coords t) ((dat0 V c).after 6 t) = _
    rw [after0_6, iblk0_0, iblk0_3]
    exact (Memref.read_access_unit_zero (Elt F) main_call0_v0_2 (funext fun a => Nat.zero_mul _) _ _).symm
  · show i ∈ ((View.whole main_call0_v0_2).slice (win0_6.rect t0_0)).set
    rw [View.set_slice_whole]
    exact View.mem_set_unit_zero (funext fun a => Nat.zero_mul _) _ i

end FirstCall

section Entry

variable (m : (ℓ : Loc nD τ sig) → Buf (Elt F) ℓ) (ρ : Dev nD → PrngReg) (c : Dev nD)

/-! ## What the second call finds: the three embedding arrays, and the galleries as launched -/

theorem E1_eq : (V2 m ρ c (Pipeline.arrRef spec1 0) : Vec F S1024x128 .f32)
    = k0_pay1 (m ((c.tc : Thread nD τ).loc main_arg0)) (m ((c.tc : Thread nD τ).loc main_arg1)) :=
  (W2_arr m ρ c 4).trans (arr0_4 (V0 m ρ) c)
theorem Q2_eq : (V2 m ρ c (Pipeline.arrRef spec1 1) : Vec F S1024x128 .f32)
    = k0_pay2 (m ((c.tc : Thread nD τ).loc main_arg0)) (m ((c.tc : Thread nD τ).loc main_arg2)) :=
  (W2_arr m ρ c 5).trans (arr0_5 (V0 m ρ) c)
theorem Q3_eq : (V2 m ρ c (Pipeline.arrRef spec1 2) : Vec F S1024x128 .f32)
    = k0_pay3 (m ((c.tc : Thread nD τ).loc main_arg0)) (m ((c.tc : Thread nD τ).loc main_arg3)) :=
  (W2_arr m ρ c 6).trans (arr0_6 (V0 m ρ) c)
theorem G1_eq : (V2 m ρ c (Pipeline.arrRef spec1 3) : Vec F S20000x128 .f32) = m ((c.tc : Thread nD τ).loc main_arg4) :=
  W2_of_ne m ρ c main_arg4 (by decide)
theorem G2_eq : (V2 m ρ c (Pipeline.arrRef spec1 4) : Vec F S20000x128 .f32) = m ((c.tc : Thread nD τ).loc main_arg5) :=
  W2_of_ne m ρ c main_arg5 (by decide)
theorem G3_eq : (V2 m ρ c (Pipeline.arrRef spec1 5) : Vec F S20000x128 .f32) = m ((c.tc : Thread nD τ).loc main_arg6) :=
  W2_of_ne m ρ c main_arg6 (by decide)

end Entry

section SecondCallFacts

/-! ## The second call's index maps and extents, decided once over the ten points -/

theorem idx1_facts : ∀ t : Fin cfg1.N,
    (win1_3.index t 0 = t.val ∧ win1_3.index t 1 = 0) ∧ (win1_4.index t 0 = t.val ∧ win1_4.index t 1 = 0)
    ∧ (win1_5.index t 0 = t.val ∧ win1_5.index t 1 = 0) ∧ (win1_6.index t 0 = 0 ∧ win1_6.index t 1 = t.val) :=
  (by decide +kernel : ∀ t : Fin grid1.N, _)

theorem xsize1_facts : ∀ t : Fin cfg1.N,
    win1_6.xsize (grid1.coords t) 0 = 1024 ∧ (win1_6.xsize (grid1.coords t) 1 = if t.val = 9 then 1568 else 2048)
    ∧ (win1_3.xsize (grid1.coords t) 0 = win1_6.xsize (grid1.coords t) 1 ∧ win1_3.xsize (grid1.coords t) 1 = 128)
    ∧ (win1_4.xsize (grid1.coords t) 0 = win1_6.xsize (grid1.coords t) 1 ∧ win1_4.xsize (grid1.coords t) 1 = 128)
    ∧ (win1_5.xsize (grid1.coords t) 0 = win1_6.xsize (grid1.coords t) 1 ∧ win1_5.xsize (grid1.coords t) 1 = 128) :=
  (by decide +kernel : ∀ t : Fin grid1.N, _)

end SecondCallFacts

section SecondCallBlocks

variable (V : (c : Dev nD) → (b : Ref sig .tc) → Buf (Elt F) ((c : Thread nD τ).loc b)) (c : Dev nD)

/-! ## The second call's blocks -/

/-- The embedding windows' blocks are the whole arrays. -/
theorem iblk1_0 (t : Fin cfg1.N) : (iblk1 V c 0 t : Vec F S1024x128 .f32) = V c (Pipeline.arrRef spec1 0) :=
  Memref.read_access_unit_zero (Elt F) main_call0_v0_0 (funext fun a => by match a with | ⟨0, _⟩ => rfl | ⟨1, _⟩ => rfl) _ _
theorem iblk1_1 (t : Fin cfg1.N) : (iblk1 V c 1 t : Vec F S1024x128 .f32) = V c (Pipeline.arrRef spec1 1) :=
  Memref.read_access_unit_zero (Elt F) main_call0_v0_1 (funext fun a => by match a with | ⟨0, _⟩ => rfl | ⟨1, _⟩ => rfl) _ _
theorem iblk1_2 (t : Fin cfg1.N) : (iblk1 V c 2 t : Vec F S1024x128 .f32) = V c (Pipeline.arrRef spec1 2) :=
  Memref.read_access_unit_zero (Elt F) main_call0_v0_2 (funext fun a => by match a with | ⟨0, _⟩ => rfl | ⟨1, _⟩ => rfl) _ _

/-- Row `jj` of head 1's gallery buffer at point `t`, a row inside the array, is row `2048 t + jj` of the gallery. -/
theorem gal3_apply (t : Fin cfg1.N) (d : S2048x128.Idx → Elt F .f32) (jj : Fin 2048) (k : Fin 128) (J : Fin 20000)
    (hjj : jj.val < win1_3.xsize (grid1.coords t) 0) (hJ : J.val = t.val * 2048 + jj.val) :
    (fblk1 V c 3 t d : Vec F S2048x128 .f32) (ValueIdx.ix2 jj k) = (V c (Pipeline.arrRef spec1 3) : Vec F S20000x128 .f32) (ValueIdx.ix2 J k) := by
  obtain ⟨⟨e0, e1⟩, -, -, -⟩ := idx1_facts t
  obtain ⟨-, -, ⟨-, x1⟩, -, -⟩ := xsize1_facts t
  have hm : (cfg1.win 3).moved (cfg1.grid.coords t) (ValueIdx.ix2 jj k) = true := ((cfg1.win 3).moved_iff _ _).mpr fun a => by
    match a with
    | ⟨0, _⟩ => exact hjj
    | ⟨1, _⟩ => show k.val < win1_3.xsize (grid1.coords t) 1; rw [x1]; exact k.isLt
  unfold fblk1 Window.fill
  rw [dif_pos hm]
  unfold iblk1
  rw [View.read_apply]
  show V c main_arg4 _ = V c main_arg4 _
  congr 1
  funext a
  apply Fin.ext
  match a with
  | ⟨0, _⟩ => show win1_3.index t 0 * 2048 + 1 * jj.val = J.val; rw [e0, hJ]; omega
  | ⟨1, _⟩ => show win1_3.index t 1 * 128 + 1 * k.val = k.val; rw [e1]; omega

/-- Row `jj` of head 2's gallery buffer at point `t`, a row inside the array, is row `2048 t + jj` of the gallery. -/
theorem gal4_apply (t : Fin cfg1.N) (d : S2048x128.Idx → Elt F .f32) (jj : Fin 2048) (k : Fin 128) (J : Fin 20000)
    (hjj : jj.val < win1_4.xsize (grid1.coords t) 0) (hJ : J.val = t.val * 2048 + jj.val) :
    (fblk1 V c 4 t d : Vec F S2048x128 .f32) (ValueIdx.ix2 jj k) = (V c (Pipeline.arrRef spec1 4) : Vec F S20000x128 .f32) (ValueIdx.ix2 J k) := by
  obtain ⟨-, ⟨e0, e1⟩, -, -⟩ := idx1_facts t
  obtain ⟨-, -, -, ⟨-, x1⟩, -⟩ := xsize1_facts t
  have hm : (cfg1.win 4).moved (cfg1.grid.coords t) (ValueIdx.ix2 jj k) = true := ((cfg1.win 4).moved_iff _ _).mpr fun a => by
    match a with
    | ⟨0, _⟩ => exact hjj
    | ⟨1, _⟩ => show k.val < win1_4.xsize (grid1.coords t) 1; rw [x1]; exact k.isLt
  unfold fblk1 Window.fill
  rw [dif_pos hm]
  unfold iblk1
  rw [View.read_apply]
  show V c main_arg5 _ = V c main_arg5 _
  congr 1
  funext a
  apply Fin.ext
  match a with
  | ⟨0, _⟩ => show win1_4.index t 0 * 2048 + 1 * jj.val = J.val; rw [e0, hJ]; omega
  | ⟨1, _⟩ => show win1_4.index t 1 * 128 + 1 * k.val = k.val; rw [e1]; omega

/-- Row `jj` of head 3's gallery buffer at point `t`, a row inside the array, is row `2048 t + jj` of the gallery. -/
theorem gal5_apply (t : Fin cfg1.N) (d : S2048x128.Idx → Elt F .f32) (jj : Fin 2048) (k : Fin 128) (J : Fin 20000)
    (hjj : jj.val < win1_5.xsize (grid1.coords t) 0) (hJ : J.val = t.val * 2048 + jj.val) :
    (fblk1 V c 5 t d : Vec F S2048x128 .f32) (ValueIdx.ix2 jj k) = (V c (Pipeline.arrRef spec1 5) : Vec F S20000x128 .f32) (ValueIdx.ix2 J k) := by
  obtain ⟨-, -, ⟨e0, e1⟩, -⟩ := idx1_facts t
  obtain ⟨-, -, -, -, ⟨-, x1⟩⟩ := xsize1_facts t
  have hm : (cfg1.win 5).moved (cfg1.grid.coords t) (ValueIdx.ix2 jj k) = true := ((cfg1.win 5).moved_iff _ _).mpr fun a => by
    match a with
    | ⟨0, _⟩ => exact hjj
    | ⟨1, _⟩ => show k.val < win1_5.xsize (grid1.coords t) 1; rw [x1]; exact k.isLt
  unfold fblk1 Window.fill
  rw [dif_pos hm]
  unfold iblk1
  rw [View.read_apply]
  show V c main_arg6 _ = V c main_arg6 _
  congr 1
  funext a
  apply Fin.ext
  match a with
  | ⟨0, _⟩ => show win1_5.index t 0 * 2048 + 1 * jj.val = J.val; rw [e0, hJ]; omega
  | ⟨1, _⟩ => show win1_5.index t 1 * 128 + 1 * k.val = k.val; rw [e1]; omega

/-- The score window's block at point `t`, read off an array `G`: rows as they are, column `jj` is column `2048 t + jj`. -/
theorem read6_apply (G : (⟨2, ![1024, 20000]⟩ : Shape).Idx → Elt F .f32) (t : Fin cfg1.N)
    (y : ((cfg1.win 6).xblock (cfg1.grid.coords t)).Idx) (i : Fin 1024) (J : Fin 20000)
    (hi : i.val = (y 0).val) (hJ : J.val = t.val * 2048 + (y 1).val) :
    ((cfg1.win 6).blk t).view.read (Elt F) G y = G (ValueIdx.ix2 i J) := by
  obtain ⟨-, -, -, ⟨e0, e1⟩⟩ := idx1_facts t
  rw [View.read_apply]
  show G _ = G _
  congr 1
  funext a
  apply Fin.ext
  match a with
  | ⟨0, _⟩ => show win1_6.index t 0 * 1024 + 1 * (y 0).val = i.val; rw [e0, hi]; omega
  | ⟨1, _⟩ => show win1_6.index t 1 * 2048 + 1 * (y 1).val = J.val; rw [e1, hJ]; omega

/-- An index of the score array is in point `t`'s block iff each coordinate is in the block's range inside the array. -/
theorem mem_blk6 (t : Fin cfg1.N) (i : S1024x20000.Idx) :
    i ∈ ((cfg1.win 6).blk t).view.set ↔ ∀ a : Fin 2, win1_6.index t a * S1024x2048.size a ≤ (i a).val
      ∧ (i a).val < win1_6.index t a * S1024x2048.size a + win1_6.xsize (grid1.coords t) a := by
  show i ∈ ((View.whole main_v0).slice (win1_6.rect t)).set ↔ _
  rw [View.set_slice_whole, Rect.mem_set_unit]
  exact Iff.rfl

/-- Every column lies in the block of the point `j / 2048`: the ten blocks' parts inside the array cover it. -/
theorem cover6 (i : S1024x20000.Idx) : ∃ t : Fin cfg1.N, (cfg1.win 6).flush t = true ∧ i ∈ ((cfg1.win 6).blk t).view.set := by
  have h0 : (i 0).val < 1024 := (i 0).isLt
  have h1 : (i 1).val < 20000 := (i 1).isLt
  have hN : cfg1.N = 10 := N_1
  let t : Fin cfg1.N := ⟨(i 1).val / 2048, by rw [hN]; omega⟩
  have ht : t.val = (i 1).val / 2048 := rfl
  obtain ⟨-, -, -, ⟨e0, e1⟩⟩ := idx1_facts t
  obtain ⟨x0, x1, -, -, -⟩ := xsize1_facts t
  refine ⟨t, flush1_6 t, ?_⟩
  rw [mem_blk6]
  intro a
  match a with
  | ⟨0, _⟩ =>
    show win1_6.index t 0 * 1024 ≤ (i 0).val ∧ (i 0).val < win1_6.index t 0 * 1024 + win1_6.xsize (grid1.coords t) 0
    rw [e0, x0]; omega
  | ⟨1, _⟩ =>
    show win1_6.index t 1 * 2048 ≤ (i 1).val ∧ (i 1).val < win1_6.index t 1 * 2048 + win1_6.xsize (grid1.coords t) 1
    rw [e1, x1]
    split <;> omega

end SecondCallBlocks

section SecondCallValue

variable (m : (ℓ : Loc nD τ sig) → Buf (Elt Ideal) ℓ) (ρ : Dev nD → PrngReg) (c : Dev nD)

/-! ## One score of a block is the closed form at its place in the array -/

theorem kcell_congr {e e' q2 q2' q3 q3' g1 g1' g2 g2' g3 g3' : Fin 128 → EReal} (he : e = e') (h2 : q2 = q2') (h3 : q3 = q3')
    (k1 : g1 = g1') (k2 : g2 = g2') (k3 : g3 = g3') :
    Cert.Spec.kcell e q2 q3 g1 g2 g3 = Cert.Spec.kcell e' q2' q3' g1' g2' g3' := by
  subst he h2 h3 k1 k2 k3; rfl

/-- The score the body leaves at `(i, jj)` of point `t`'s block, for a column `jj` inside the array, is the closed form at
    `(i, 2048 t + jj)`: the embedding blocks are the first call's whole arrays, and row `jj` of each gallery buffer is
    row `2048 t + jj` of the gallery. -/
theorem score_apply (t : Fin cfg1.N) (d3 d4 d5 : S2048x128.Idx → Elt Ideal .f32) (i : Fin 1024) (jj : Fin 2048) (J : Fin 20000)
    (hjj : jj.val < win1_6.xsize (grid1.coords t) 1) (hJ : J.val = t.val * 2048 + jj.val) :
    (outblk1 (F := Ideal) (V2 m ρ) c t d3 d4 d5 : FVec Ideal S1024x2048 .f32) (ValueIdx.ix2 i jj)
      = Cert.Spec.KG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (ValueIdx.ix2 i J) := by
  obtain ⟨-, -, ⟨x3, -⟩, ⟨x4, -⟩, ⟨x5, -⟩⟩ := xsize1_facts t
  unfold outblk1
  refine (PayIdx.cell_apply _ _ _ _ _ _ i jj).trans ?_
  refine kcell_congr (funext fun k => ?_) (funext fun k => ?_) (funext fun k => ?_) (funext fun k => ?_) (funext fun k => ?_) (funext fun k => ?_)
  · show (iblk1 (V2 m ρ) c 0 t : FVec Ideal S1024x128 .f32) (ValueIdx.ix2 i k) = _
    rw [iblk1_0, E1_eq]; exact PayIdx.emb_apply _ _ i k
  · show (iblk1 (V2 m ρ) c 1 t : FVec Ideal S1024x128 .f32) (ValueIdx.ix2 i k) = _
    rw [iblk1_1, Q2_eq]; exact PayIdx.unit2_apply _ _ i k
  · show (iblk1 (V2 m ρ) c 2 t : FVec Ideal S1024x128 .f32) (ValueIdx.ix2 i k) = _
    rw [iblk1_2, Q3_eq]; exact PayIdx.unit3_apply _ _ i k
  · exact (gal3_apply (V2 m ρ) c t d3 jj k J (by rw [x3]; exact hjj) hJ).trans (congrFun (G1_eq m ρ c) _)
  · exact (gal4_apply (V2 m ρ) c t d4 jj k J (by rw [x4]; exact hjj) hJ).trans (congrFun (G2_eq m ρ c) _)
  · exact (gal5_apply (V2 m ρ) c t d5 jj k J (by rw [x5]; exact hjj) hJ).trans (congrFun (G3_eq m ρ c) _)

/-- WHAT POINT `t` WRITES BACK is block `t` of the closed form. -/
theorem flushed6_eq (t : Fin cfg1.N) :
    (dat1 (F := Ideal) (V2 m ρ) c).flushed 6 t = ((cfg1.win 6).blk t).view.read (Elt Ideal)
      (Cert.Spec.KG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) := by
  funext y
  obtain ⟨x0, x1, -, -, -⟩ := xsize1_facts t
  have hN : cfg1.N = 10 := N_1
  have ht : t.val < 10 := hN ▸ t.isLt
  have hy0' : (y 0).val < win1_6.xsize (grid1.coords t) 0 := (y 0).isLt
  have hy1 : (y 1).val < win1_6.xsize (grid1.coords t) 1 := (y 1).isLt
  have hy0 : (y 0).val < 1024 := by rw [x0] at hy0'; exact hy0'
  have hb : win1_6.xsize (grid1.coords t) 1 ≤ 2048 ∧ t.val * 2048 + win1_6.xsize (grid1.coords t) 1 ≤ 20000 := by
    rw [x1]; split <;> omega
  have hy1' : (y 1).val < 2048 := by omega
  have hJ : t.val * 2048 + (y 1).val < 20000 := by omega
  rw [read6_apply _ t y ⟨(y 0).val, hy0⟩ ⟨t.val * 2048 + (y 1).val, hJ⟩ rfl rfl]
  show (dat1 (F := Ideal) (V2 m ρ) c).after 6 t ((cfg1.win 6).xinj (cfg1.grid.coords t) y) = _
  rw [after1_6]
  have hxy : (cfg1.win 6).xinj (cfg1.grid.coords t) y = ValueIdx.ix2 (⟨(y 0).val, hy0⟩ : Fin 1024) (⟨(y 1).val, hy1'⟩ : Fin 2048) :=
    funext fun a => Fin.ext (by match a with | ⟨0, _⟩ => rfl | ⟨1, _⟩ => rfl)
  rw [hxy]
  exact score_apply m ρ c t _ _ _ ⟨(y 0).val, hy0⟩ ⟨(y 1).val, hy1'⟩ ⟨t.val * 2048 + (y 1).val, hJ⟩ hy1 rfl

end SecondCallValue
/-- THE KERNEL'S RESULT: the score array after the second pipeline's write-backs is the closed form of the
    launch memory's seven argument arrays. -/
theorem final_eq (m : (ℓ : Loc nD τ sig) → Buf (Elt Ideal) ℓ) (ρ : Dev nD → PrngReg) (c : Dev nD) :
    (dat1 (F := Ideal) (V2 m ρ) c).arrAt 6 cfg1.N
      = Cert.Spec.KG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (dat1 (F := Ideal) (V2 m ρ) c).arrAt_eq_of_cover 6 _ (fun t _ => flushed6_eq m ρ c t) cover6

end Cert.KernelIdeal.Hand

end
-- ==== Proof.RefValue.lean ====
/-
  The reference's result array is the closed form `Spec.RG` of its seven argument arrays.

  Entry `(i, j)` of the result is read stage by stage. Each head embeds row `i` of `x` as `e = x i · W`
  (`emb_apply`). Head 1 forms `y = max (|e|² + |g|² − ⟨2 e, g⟩) 0 + ε` from the two squared lengths and the cross term
  (`sqE_apply`, `sqG_apply`, `cross_apply`, `dist_apply`), then `exp (−((√y / τ)²)²)`, kept when it is at least `α` and
  replaced by `0` otherwise (`cer_apply`). Heads 2 and 3 divide the embedded row and the gallery row by their regularised
  lengths `|·| + ε` (`nrmE_apply`, `unitE_apply`, `nrmG_apply`, `unitG_apply`) and take the inner product (`cos_apply`).
  The three arrays are stacked along a new leading axis; the sum over that axis of size three, from the initial value
  `0`, is the sum of the three heads' values, and it is divided by `3` (`mean_apply`). Only `0 + s = s` is used of the
  extended reals' arithmetic: every other step is the definition of an operation at an index.
-/
import proofs.«153459_g75874892251866_cont_9to1_m_1391_4_alg».proof.Proof.Gen.ReferenceIdeal.Run
import proofs.«153459_g75874892251866_cont_9to1_m_1391_4_alg».proof.Proof.Gen.ReferenceIdeal.Read
import proofs.«153459_g75874892251866_cont_9to1_m_1391_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.TcCoe Idealize.ShloMosaic.ValueIdx Idealize.SL.Sem
open Cert.ReferenceIdeal.Read
open scoped BigOperators

/-- The query array's type. -/
abbrev AX : Type := (⟨2, ![1024, 512]⟩ : Shape).Idx → EReal
/-- A weight matrix's type. -/
abbrev AW : Type := (⟨2, ![512, 128]⟩ : Shape).Idx → EReal
/-- A gallery's type. -/
abbrev AG : Type := (⟨2, ![20000, 128]⟩ : Shape).Idx → EReal

/-! ## The embedding `x · W` -/

theorem lidx_emb (i : Fin 1024) (k : Fin 128) (d : Fin 512) : lidx_main_v0 (ix2 i k) d = ix2 i d :=
  funext fun a => by match a with | ⟨0, _⟩ => rfl | ⟨1, _⟩ => rfl
theorem ridx_emb (i : Fin 1024) (k : Fin 128) (d : Fin 512) : ridx_main_v0 (ix2 i k) d = ix2 d k :=
  funext fun a => by match a with | ⟨0, _⟩ => rfl | ⟨1, _⟩ => rfl

/-- Entry `(i, k)` of `x · W` is the embedding of row `i`. -/
theorem emb_apply (x : AX) (w : AW) (i : Fin 1024) (k : Fin 128) :
    val_main_v0 (F := Ideal) x w (ix2 i k) = Spec.emb (Spec.row x i) (Spec.mat w) k := by
  rw [val_main_v0_apply]
  exact Finset.sum_congr rfl fun d _ => by rw [lidx_emb, ridx_emb]

theorem idx_sqE (i : Fin 1024) (k : Fin 128) : idx_main_v2 (ix1 i) k = ix2 i k :=
  funext fun a => by match a with | ⟨0, _⟩ => rfl | ⟨1, _⟩ => rfl

/-- The squared length of an embedded row. -/
theorem sqE_apply (x : AX) (w : AW) (i : Fin 1024) :
    val_main_v2 (F := Ideal) x w (ix1 i) = Spec.sq (Spec.emb (Spec.row x i) (Spec.mat w)) := by
  rw [val_main_v2_apply, val_main_cst_apply, Ideal.ofBits_def, Ideal.ofBits_zero_f32, zero_add]
  exact Finset.sum_congr rfl fun k _ => by
    rw [val_main_v1_apply, Ideal.mulf_def, idx_sqE, emb_apply]

theorem idx_sqG (j : Fin 20000) (k : Fin 128) : idx_main_v5 (ix1 j) k = ix2 j k :=
  funext fun a => by match a with | ⟨0, _⟩ => rfl | ⟨1, _⟩ => rfl

/-- The squared length of a gallery row. -/
theorem sqG_apply (g : AG) (j : Fin 20000) :
    val_main_v5 (F := Ideal) g (ix1 j) = Spec.sq (Spec.row g j) := by
  rw [val_main_v5_apply, val_main_cst_0_apply, Ideal.ofBits_def, Ideal.ofBits_zero_f32, zero_add]
  exact Finset.sum_congr rfl fun k _ => by
    rw [val_main_v4_apply, Ideal.mulf_def, idx_sqG]

/-! ## Head 1: the thresholded radial similarity -/

theorem idx_q2 (i : Fin 1024) (j : Fin 20000) : idx_main_v3 (idx_main_v7 (ix2 i j)) = ix1 i :=
  funext fun a => by match a with | ⟨0, _⟩ => rfl
theorem idx_g2 (i : Fin 1024) (j : Fin 20000) : idx_main_v6 (idx_main_v8 (ix2 i j)) = ix1 j :=
  funext fun a => by match a with | ⟨0, _⟩ => rfl
theorem lidx_cross (i : Fin 1024) (j : Fin 20000) (k : Fin 128) : lidx_main_v13 (ix2 i j) k = ix2 i k :=
  funext fun a => by match a with | ⟨0, _⟩ => rfl | ⟨1, _⟩ => rfl
theorem ridx_cross (i : Fin 1024) (j : Fin 20000) (k : Fin 128) :
    idx_main_v12 (ridx_main_v13 (ix2 i j) k) = ix2 j k :=
  funext fun a => by match a with | ⟨0, _⟩ => rfl | ⟨1, _⟩ => rfl

/-- The cross term: the inner product of the doubled embedding with the gallery row. -/
theorem cross_apply (x : AX) (w : AW) (g : AG) (i : Fin 1024) (j : Fin 20000) :
    val_main_v13 (F := Ideal) x w g (ix2 i j)
      = Spec.dot (fun k => Spec.two * Spec.emb (Spec.row x i) (Spec.mat w) k) (Spec.row g j) := by
  rw [val_main_v13_apply]
  exact Finset.sum_congr rfl fun k _ => by
    rw [val_main_v12_apply, ridx_cross, lidx_cross, val_main_v11_apply, val_main_v10_apply, val_main_cst_1_apply,
      emb_apply, Ideal.mulf_def, Ideal.ofBits_def]

/-- The regularised squared distance `max (|e|² + |g|² − ⟨2e, g⟩) 0 + ε`. -/
theorem dist_apply (x : AX) (w : AW) (g : AG) (i : Fin 1024) (j : Fin 20000) :
    val_main_v18 (F := Ideal) x w g (ix2 i j)
      = max (Spec.sq (Spec.emb (Spec.row x i) (Spec.mat w)) + Spec.sq (Spec.row g j)
          - Spec.dot (fun k => Spec.two * Spec.emb (Spec.row x i) (Spec.mat w) k) (Spec.row g j)) 0 + Spec.eps := by
  rw [val_main_v18_apply, val_main_v17_apply, val_main_cst_3_apply, val_main_v16_apply, val_main_v15_apply,
    val_main_cst_2_apply, val_main_v14_apply, val_main_v9_apply, val_main_v7_apply, val_main_v3_apply, idx_q2, sqE_apply,
    val_main_v8_apply, val_main_v6_apply, idx_g2, sqG_apply, cross_apply]
  simp only [Ideal.ofBits_def, Ideal.ofBits_zero_f32, Ideal.addf_def, Ideal.subf_def, Ideal.maximumf_def]

/-- Head 1's similarity at `(i, j)`. -/
theorem cer_apply (x : AX) (w : AW) (g : AG) (i : Fin 1024) (j : Fin 20000) :
    val_main_v28 (F := Ideal) x w g (ix2 i j)
      = Spec.rcer (Spec.emb (Spec.row x i) (Spec.mat w)) (Spec.row g j) := by
  rw [val_main_v28_apply, val_main_v27_apply, val_main_call0_v1_apply, val_main_call0_v0_apply, val_main_cst_6_apply,
    val_main_v26_apply, val_main_cst_5_apply, val_main_v25_apply, val_main_v24_apply, val_main_v23_apply,
    val_main_v22_apply, val_main_v21_apply, val_main_v20_apply, val_main_cst_4_apply, val_main_v19_apply, dist_apply]
  simp only [Ideal.cmpf_def, Ideal.hostUnary_exp_def, Ideal.hostNegf_def, Ideal.negf_def, Ideal.mulf_def,
    Ideal.hostDivf_def, Ideal.hostUnary_sqrt_def, Ideal.ofBits_def, Ideal.ofBits_zero_f32, Spec.rcer, Spec.thr]

/-! ## Heads 2 and 3: cosines of normalised rows -/

/-- The squared length of an embedded row, as the norm function sums it (the same sum). -/
theorem sqE'_apply (x : AX) (w : AW) (i : Fin 1024) :
    val_main_call1_v1 (F := Ideal) x w (ix1 i) = Spec.sq (Spec.emb (Spec.row x i) (Spec.mat w)) := sqE_apply x w i

theorem idx_nrmE (i : Fin 1024) (z : Fin 1) : idx_main_call1_v2 (ix2 i z) = ix1 i :=
  funext fun a => by match a with | ⟨0, _⟩ => rfl

/-- The regularised length of an embedded row. -/
theorem nrmE_apply (x : AX) (w : AW) (i : Fin 1024) (z : Fin 1) :
    val_main_v32 (F := Ideal) x w (ix2 i z) = Spec.nrm (Spec.emb (Spec.row x i) (Spec.mat w)) := by
  rw [val_main_v32_apply, val_main_v31_apply, val_main_cst_7_apply, val_main_v30_apply, val_main_call1_v2_apply,
    idx_nrmE, sqE'_apply]
  simp only [Ideal.addf_def, Ideal.hostUnary_sqrt_def, Ideal.ofBits_def, Spec.nrm]

theorem idx_unitE (i : Fin 1024) (k : Fin 128) : idx_main_v33 (ix2 i k) = ix2 i (⟨0, Nat.one_pos⟩ : Fin 1) :=
  funext fun a => by match a with | ⟨0, _⟩ => rfl | ⟨1, _⟩ => rfl

/-- A normalised embedded row. -/
theorem unitE_apply (x : AX) (w : AW) (i : Fin 1024) (k : Fin 128) :
    val_main_v34 (F := Ideal) x w (ix2 i k) = Spec.unit (Spec.emb (Spec.row x i) (Spec.mat w)) k := by
  rw [val_main_v34_apply, val_main_v33_apply, idx_unitE, nrmE_apply,
    show val_main_v29 (F := Ideal) x w (ix2 i k) = Spec.emb (Spec.row x i) (Spec.mat w) k from emb_apply x w i k]
  simp only [Ideal.hostDivf_def, Spec.unit]

/-- The squared length of a gallery row, as the norm function sums it (the same sum). -/
theorem sqG'_apply (g : AG) (j : Fin 20000) :
    val_main_call2_v1 (F := Ideal) g (ix1 j) = Spec.sq (Spec.row g j) := sqG_apply g j

theorem idx_nrmG (j : Fin 20000) (z : Fin 1) : idx_main_call2_v2 (ix2 j z) = ix1 j :=
  funext fun a => by match a with | ⟨0, _⟩ => rfl

/-- The regularised length of a gallery row. -/
theorem nrmG_apply (g : AG) (j : Fin 20000) (z : Fin 1) :
    val_main_v37 (F := Ideal) g (ix2 j z) = Spec.nrm (Spec.row g j) := by
  rw [val_main_v37_apply, val_main_v36_apply, val_main_cst_8_apply, val_main_v35_apply, val_main_call2_v2_apply,
    idx_nrmG, sqG'_apply]
  simp only [Ideal.addf_def, Ideal.hostUnary_sqrt_def, Ideal.ofBits_def, Spec.nrm]

theorem idx_unitG (j : Fin 20000) (k : Fin 128) : idx_main_v38 (ix2 j k) = ix2 j (⟨0, Nat.one_pos⟩ : Fin 1) :=
  funext fun a => by match a with | ⟨0, _⟩ => rfl | ⟨1, _⟩ => rfl

/-- A normalised gallery row. -/
theorem unitG_apply (g : AG) (j : Fin 20000) (k : Fin 128) :
    val_main_v39 (F := Ideal) g (ix2 j k) = Spec.unit (Spec.row g j) k := by
  rw [val_main_v39_apply, val_main_v38_apply, idx_unitG, nrmG_apply]
  simp only [Ideal.hostDivf_def, Spec.unit]

theorem lidx_cos (i : Fin 1024) (j : Fin 20000) (k : Fin 128) : lidx_main_v41 (ix2 i j) k = ix2 i k :=
  funext fun a => by match a with | ⟨0, _⟩ => rfl | ⟨1, _⟩ => rfl
theorem ridx_cos (i : Fin 1024) (j : Fin 20000) (k : Fin 128) :
    idx_main_v40 (ridx_main_v41 (ix2 i j) k) = ix2 j k :=
  funext fun a => by match a with | ⟨0, _⟩ => rfl | ⟨1, _⟩ => rfl

/-- Head 2's cosine at `(i, j)`: the inner product of the two normalised rows. -/
theorem cos_apply (x : AX) (w : AW) (g : AG) (i : Fin 1024) (j : Fin 20000) :
    val_main_v41 (F := Ideal) x w g (ix2 i j)
      = Spec.dot (Spec.unit (Spec.emb (Spec.row x i) (Spec.mat w))) (Spec.unit (Spec.row g j)) := by
  rw [val_main_v41_apply]
  exact Finset.sum_congr rfl fun k _ => by
    rw [val_main_v40_apply, ridx_cos, lidx_cos, unitE_apply, unitG_apply]

/-- Head 3's cosine: the same operations on the third weight matrix and gallery. -/
theorem cos'_apply (x : AX) (w : AW) (g : AG) (i : Fin 1024) (j : Fin 20000) :
    val_main_v54 (F := Ideal) x w g (ix2 i j)
      = Spec.dot (Spec.unit (Spec.emb (Spec.row x i) (Spec.mat w))) (Spec.unit (Spec.row g j)) := cos_apply x w g i j

/-! ## The mean of the three heads -/

theorem idx_mean (i : Fin 1024) (j : Fin 20000) (k : Fin 3) : idx_main_v59 (ix2 i j) k = ix3 k i j :=
  funext fun a => by match a with | ⟨0, _⟩ => rfl | ⟨1, _⟩ => rfl | ⟨2, _⟩ => rfl
theorem idx_layer1 (z : Fin 1) (i : Fin 1024) (j : Fin 20000) : idx_main_v55 (ix3 z i j) = ix2 i j :=
  funext fun a => by match a with | ⟨0, _⟩ => rfl | ⟨1, _⟩ => rfl
theorem idx_layer2 (z : Fin 1) (i : Fin 1024) (j : Fin 20000) : idx_main_v56 (ix3 z i j) = ix2 i j :=
  funext fun a => by match a with | ⟨0, _⟩ => rfl | ⟨1, _⟩ => rfl
theorem idx_layer3 (z : Fin 1) (i : Fin 1024) (j : Fin 20000) : idx_main_v57 (ix3 z i j) = ix2 i j :=
  funext fun a => by match a with | ⟨0, _⟩ => rfl | ⟨1, _⟩ => rfl

/-- Three one-layer arrays joined along the leading axis, read in layer 0: the first array. -/
theorem stack0 {α : Type} (A B C : S1x1024x20000.Idx → α) (i : Fin 1024) (j : Fin 20000) :
    concatenate S3x1024x20000 0 [⟨S1x1024x20000, A⟩, ⟨S1x1024x20000, B⟩, ⟨S1x1024x20000, C⟩]
        concatenates_S1x1024x20000_S1x1024x20000_S1x1024x20000_S3x1024x20000_d0 (ix3 (0 : Fin 3) i j)
      = A (ix3 (0 : Fin 1) i j) :=
  by
  refine concatenate_apply_piece (t := S3x1024x20000) 0 [⟨S1x1024x20000, A⟩, ⟨S1x1024x20000, B⟩, ⟨S1x1024x20000, C⟩] _ (ix3 (0 : Fin 3) i j) 0 (show 0 < 3 by decide) S1x1024x20000 A rfl rfl 0 rfl
    (ix3 (0 : Fin 1) i j) ?_ rfl
  intro b hb
  match b, hb with
  | ⟨0, _⟩, hb => exact absurd rfl hb
  | ⟨1, _⟩, _ => rfl
  | ⟨2, _⟩, _ => rfl

/-- The same join read in layer 1: the second array. -/
theorem stack1 {α : Type} (A B C : S1x1024x20000.Idx → α) (i : Fin 1024) (j : Fin 20000) :
    concatenate S3x1024x20000 0 [⟨S1x1024x20000, A⟩, ⟨S1x1024x20000, B⟩, ⟨S1x1024x20000, C⟩]
        concatenates_S1x1024x20000_S1x1024x20000_S1x1024x20000_S3x1024x20000_d0 (ix3 (1 : Fin 3) i j)
      = B (ix3 (0 : Fin 1) i j) :=
  by
  refine concatenate_apply_piece (t := S3x1024x20000) 0 [⟨S1x1024x20000, A⟩, ⟨S1x1024x20000, B⟩, ⟨S1x1024x20000, C⟩] _ (ix3 (1 : Fin 3) i j) 1 (show 1 < 3 by decide) S1x1024x20000 B rfl rfl 1 rfl
    (ix3 (0 : Fin 1) i j) ?_ rfl
  intro b hb
  match b, hb with
  | ⟨0, _⟩, hb => exact absurd rfl hb
  | ⟨1, _⟩, _ => rfl
  | ⟨2, _⟩, _ => rfl

/-- The same join read in layer 2: the third array. -/
theorem stack2 {α : Type} (A B C : S1x1024x20000.Idx → α) (i : Fin 1024) (j : Fin 20000) :
    concatenate S3x1024x20000 0 [⟨S1x1024x20000, A⟩, ⟨S1x1024x20000, B⟩, ⟨S1x1024x20000, C⟩]
        concatenates_S1x1024x20000_S1x1024x20000_S1x1024x20000_S3x1024x20000_d0 (ix3 (2 : Fin 3) i j)
      = C (ix3 (0 : Fin 1) i j) :=
  by
  refine concatenate_apply_piece (t := S3x1024x20000) 0 [⟨S1x1024x20000, A⟩, ⟨S1x1024x20000, B⟩, ⟨S1x1024x20000, C⟩] _ (ix3 (2 : Fin 3) i j) 2 (show 2 < 3 by decide) S1x1024x20000 C rfl rfl 2 rfl
    (ix3 (0 : Fin 1) i j) ?_ rfl
  intro b hb
  match b, hb with
  | ⟨0, _⟩, hb => exact absurd rfl hb
  | ⟨1, _⟩, _ => rfl
  | ⟨2, _⟩, _ => rfl

theorem layer0_apply (x : AX) (w1 w2 w3 : AW) (g1 g2 g3 : AG) (i : Fin 1024) (j : Fin 20000) :
    val_main_v58 (F := Ideal) x w1 w2 w3 g1 g2 g3 (ix3 (0 : Fin 3) i j)
      = val_main_v55 (F := Ideal) x w1 g1 (ix3 (0 : Fin 1) i j) := stack0 _ _ _ i j
theorem layer1_apply (x : AX) (w1 w2 w3 : AW) (g1 g2 g3 : AG) (i : Fin 1024) (j : Fin 20000) :
    val_main_v58 (F := Ideal) x w1 w2 w3 g1 g2 g3 (ix3 (1 : Fin 3) i j)
      = val_main_v56 (F := Ideal) x w2 g2 (ix3 (0 : Fin 1) i j) := stack1 _ _ _ i j
theorem layer2_apply (x : AX) (w1 w2 w3 : AW) (g1 g2 g3 : AG) (i : Fin 1024) (j : Fin 20000) :
    val_main_v58 (F := Ideal) x w1 w2 w3 g1 g2 g3 (ix3 (2 : Fin 3) i j)
      = val_main_v57 (F := Ideal) x w3 g3 (ix3 (0 : Fin 1) i j) := stack2 _ _ _ i j

/-- The reference's result at `(i, j)`: the sum of the three heads' similarities divided by three. -/
theorem mean_apply (x : AX) (w1 w2 w3 : AW) (g1 g2 g3 : AG) (i : Fin 1024) (j : Fin 20000) :
    val_main_v61 (F := Ideal) x w1 w2 w3 g1 g2 g3 (ix2 i j)
      = Spec.rval (Spec.row x i) (Spec.mat w1) (Spec.mat w2) (Spec.mat w3) (Spec.row g1 j) (Spec.row g2 j)
          (Spec.row g3 j) := by
  rw [val_main_v61_apply, val_main_v60_apply, val_main_cst_12_apply, val_main_v59_apply, val_main_cst_11_apply,
    Fin.sum_univ_three, idx_mean, idx_mean, idx_mean, layer0_apply, layer1_apply, layer2_apply,
    val_main_v55_apply, val_main_v56_apply, val_main_v57_apply, idx_layer1, idx_layer2, idx_layer3,
    cer_apply, cos_apply, cos'_apply]
  simp only [Ideal.hostDivf_def, Ideal.ofBits_def, Ideal.ofBits_zero_f32, zero_add, Spec.rval, Spec.rcell]

/-! ## The result array -/

/-- The reference's result term is the closed form of its seven argument arrays. -/
theorem result_eq (m : (ℓ : Loc nD τ sig) → Buf (Elt Ideal) ℓ) (c : Dev nD) :
    res_out0 (F := Ideal) m c
      = Cert.Spec.RG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  refine (val_main_v61_eq (F := Ideal) m c).trans ?_
  funext ij
  obtain ⟨i, j, rfl⟩ : ∃ (i : Fin 1024) (j : Fin 20000), ij = ix2 i j := ⟨ij 0, ij 1, eq_ix2 ij⟩
  exact mean_apply _ _ _ _ _ _ _ i j

/-- The reference's run with its result named by the closed form. -/
theorem run_RG (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
        = Cert.Spec.RG (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c).1.trans (result_eq m c), (h c).2⟩)
    (Cert.ReferenceIdeal.Value.run (F := Ideal) m ρ)

end Cert.ReferenceIdeal.RefValue

end
-- ==== Proof.Law.lean ====
/-
  The law that joins the two arrangements of `Spec.lean`: on real inputs the kernel's score is the reference's.
-/
import proofs.«153459_g75874892251866_cont_9to1_m_1391_4_alg».proof.Proof.Spec

noncomputable section

open scoped BigOperators

namespace Cert.Spec

open Idealize.ShloMosaic Idealize.ShloMosaic.ValueIdx

/-! ## The shared literals as real numbers -/

theorem two_eq : two = ((2 : ℝ) : EReal) := by
  simp [Ideal.ofBits, Ideal.ieee, -EReal.coe_mul]; norm_num
theorem one_eq : one = ((1 : ℝ) : EReal) := by
  simp [Ideal.ofBits, Ideal.ieee, -EReal.coe_mul]; norm_num
theorem three_eq : three = ((3 : ℝ) : EReal) := by
  simp [Ideal.ofBits, Ideal.ieee, -EReal.coe_mul]; norm_num
theorem tau_eq : tau = ((7 / 4 : ℝ) : EReal) := by
  simp [Ideal.ofBits, Ideal.ieee, -EReal.coe_mul]; norm_num
/-- `ε` is the positive real `9223372 · 2⁻⁶³` (the word's exact dyadic value). -/
theorem eps_eq : ∃ r : ℝ, 0 < r ∧ eps = (r : EReal) := by
  refine ⟨9223372 * (2 : ℝ) ^ (-63 : ℤ), by positivity, ?_⟩
  simp [Ideal.ofBits, Ideal.ieee, -EReal.coe_mul]

/-! ## Real entries -/

/-- The coercion of a finite real sum is the sum of the coercions. -/
theorem coe_sum {ι : Type} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A family of real extended reals is the coercion of a real family. -/
theorem exists_real_fun {ι : Type} (f : ι → EReal) (h : ∀ i, IsReal (f i)) :
    ∃ fr : ι → ℝ, f = fun i => (fr i : EReal) :=
  ⟨fun i => (h i).choose, funext fun i => (h i).choose_spec⟩

theorem exists_real_fun₂ {ι κ : Type} (f : ι → κ → EReal) (h : ∀ i k, IsReal (f i k)) :
    ∃ fr : ι → κ → ℝ, f = fun i k => (fr i k : EReal) :=
  ⟨fun i k => (h i k).choose, funext fun i => funext fun k => (h i k).choose_spec⟩

theorem sq_coe (e : Fin 128 → ℝ) : sq (fun k => (e k : EReal)) = ((∑ k, e k * e k : ℝ) : EReal) := by
  simp only [sq, coe_sum, EReal.coe_mul]

theorem dot_coe (a b : Fin 128 → ℝ) :
    dot (fun k => (a k : EReal)) (fun k => (b k : EReal)) = ((∑ k, a k * b k : ℝ) : EReal) := by
  simp only [dot, coe_sum, EReal.coe_mul]

theorem emb_coe (x : Fin 512 → ℝ) (W : Fin 512 → Fin 128 → ℝ) :
    emb (fun d => (x d : EReal)) (fun d k => (W d k : EReal)) = fun k => ((∑ d, x d * W d k : ℝ) : EReal) := by
  funext k
  simp only [emb, coe_sum, EReal.coe_mul]

/-- The coercion is monotone, so it commutes with `max`. -/
theorem coe_max (a b : ℝ) : ((max a b : ℝ) : EReal) = max (a : EReal) (b : EReal) :=
  EReal.coe_strictMono.monotone.map_max

/-- The root of a nonnegative real. -/
theorem sqrt_coe {r : ℝ} (h : 0 ≤ r) : Ideal.sqrt (r : EReal) = ((Real.sqrt r : ℝ) : EReal) := by
  show (if r < 0 then (⊥ : EReal) else ((Real.sqrt r : ℝ) : EReal)) = _
  rw [if_neg (not_lt.mpr h)]

/-- The regularised length of a real row is a positive real. -/
theorem nrm_coe (g : Fin 128 → ℝ) : ∃ r : ℝ, 0 < r ∧ nrm (fun k => (g k : EReal)) = (r : EReal) := by
  obtain ⟨ε, hε, hε'⟩ := eps_eq
  have h0 : 0 ≤ ∑ k, g k * g k := Finset.sum_nonneg fun k _ => mul_self_nonneg (g k)
  refine ⟨Real.sqrt (∑ k, g k * g k) + ε, add_pos_of_nonneg_of_pos (Real.sqrt_nonneg _) hε, ?_⟩
  rw [nrm, sq_coe, sqrt_coe h0, hε', EReal.coe_add]

/-! ## Heads 2 and 3: a quotient is a product with the reciprocal -/

theorem kunit_eq_unit (g : Fin 128 → ℝ) : kunit (fun k => (g k : EReal)) = unit (fun k => (g k : EReal)) := by
  obtain ⟨r, hr, hn⟩ := nrm_coe g
  funext k
  show (g k : EReal) * Ideal.div one (nrm fun k => (g k : EReal)) = Ideal.div (g k : EReal) (nrm fun k => (g k : EReal))
  rw [hn, Ideal.div_coe hr.ne', Ideal.div_coe hr.ne', one_eq, EReal.coe_one, one_mul]

/-! ## Head 1: the two exponents are one real -/

/-- For a real `y ≥ 0`: `0 − (y · 16/49)² = −((√y / τ)²)²`. -/
theorem expo_eq {y : ℝ} (hy : 0 ≤ y) :
    (0 : EReal) - ((y : EReal) * ((16 / 49 : ℝ) : EReal)) * ((y : EReal) * ((16 / 49 : ℝ) : EReal))
      = -((Ideal.div (Ideal.sqrt (y : EReal)) tau * Ideal.div (Ideal.sqrt (y : EReal)) tau)
          * (Ideal.div (Ideal.sqrt (y : EReal)) tau * Ideal.div (Ideal.sqrt (y : EReal)) tau)) := by
  have hs : Real.sqrt y * Real.sqrt y = y := Real.mul_self_sqrt hy
  rw [sqrt_coe hy, tau_eq, Ideal.div_coe (by norm_num : (7 / 4 : ℝ) ≠ 0)]
  rw [← EReal.coe_zero, ← EReal.coe_mul, ← EReal.coe_mul, ← EReal.coe_sub, ← EReal.coe_mul, ← EReal.coe_mul,
    ← EReal.coe_mul, ← EReal.coe_neg]
  congr 1
  generalize Real.sqrt y = s at hs
  subst hs
  ring

/-- A scalar goes through the inner product's sum. -/
theorem two_dot (e g : Fin 128 → ℝ) :
    two * dot (fun k => (e k : EReal)) (fun k => (g k : EReal))
      = dot (fun k => two * (e k : EReal)) (fun k => (g k : EReal)) := by
  rw [two_eq]
  have h : (fun k => ((2 : ℝ) : EReal) * (e k : EReal)) = fun k => ((2 * e k : ℝ) : EReal) := by
    funext k; rw [EReal.coe_mul]
  rw [h, dot_coe, dot_coe, ← EReal.coe_mul, Finset.mul_sum]
  congr 1
  exact Finset.sum_congr rfl fun k _ => (mul_assoc _ _ _).symm

/-- The regularised squared distance of two real rows is a nonnegative real. -/
theorem dist_coe (e g : Fin 128 → ℝ) :
    ∃ y : ℝ, 0 ≤ y ∧
      max (sq (fun k => (e k : EReal)) + sq (fun k => (g k : EReal))
            - two * dot (fun k => (e k : EReal)) (fun k => (g k : EReal))) 0 + eps = (y : EReal) := by
  obtain ⟨ε, hε, hε'⟩ := eps_eq
  refine ⟨max (∑ k, e k * e k + ∑ k, g k * g k - 2 * ∑ k, e k * g k) 0 + ε,
    add_nonneg (le_max_right _ _) hε.le, ?_⟩
  rw [sq_coe, sq_coe, dot_coe, two_eq, hε', ← EReal.coe_add, ← EReal.coe_mul, ← EReal.coe_sub, ← EReal.coe_zero,
    ← coe_max, ← EReal.coe_add]

theorem kcer_eq_rcer (e g : Fin 128 → ℝ) :
    kcer (fun k => (e k : EReal)) (fun k => (g k : EReal)) = rcer (fun k => (e k : EReal)) (fun k => (g k : EReal)) := by
  obtain ⟨y, hy, hd⟩ := dist_coe e g
  unfold kcer rcer
  rw [← two_dot, hd, expo_eq hy]

/-! ## The law -/

/-- THE LAW. On real inputs the kernel's score is the reference's. -/
theorem kval_eq_rval (x : Fin 512 → EReal) (W1 W2 W3 : Fin 512 → Fin 128 → EReal) (g1 g2 g3 : Fin 128 → EReal)
    (hx : ∀ d, IsReal (x d)) (hW1 : ∀ d k, IsReal (W1 d k)) (hW2 : ∀ d k, IsReal (W2 d k)) (hW3 : ∀ d k, IsReal (W3 d k))
    (hg1 : ∀ k, IsReal (g1 k)) (hg2 : ∀ k, IsReal (g2 k)) (hg3 : ∀ k, IsReal (g3 k)) :
    kval x W1 W2 W3 g1 g2 g3 = rval x W1 W2 W3 g1 g2 g3 := by
  obtain ⟨xr, rfl⟩ := exists_real_fun x hx
  obtain ⟨W1r, rfl⟩ := exists_real_fun₂ W1 hW1
  obtain ⟨W2r, rfl⟩ := exists_real_fun₂ W2 hW2
  obtain ⟨W3r, rfl⟩ := exists_real_fun₂ W3 hW3
  obtain ⟨g1r, rfl⟩ := exists_real_fun g1 hg1
  obtain ⟨g2r, rfl⟩ := exists_real_fun g2 hg2
  obtain ⟨g3r, rfl⟩ := exists_real_fun g3 hg3
  unfold kval rval kcell rcell
  rw [emb_coe, emb_coe, emb_coe, kcer_eq_rcer, kunit_eq_unit, kunit_eq_unit, three_eq,
    Ideal.div_coe (by norm_num : (3 : ℝ) ≠ 0)]

/-- On arrays of real numbers the two result arrays are one. -/
theorem KG_eq_RG (x : (⟨2, ![1024, 512]⟩ : Shape).Idx → EReal) (W1 W2 W3 : (⟨2, ![512, 128]⟩ : Shape).Idx → EReal)
    (G1 G2 G3 : (⟨2, ![20000, 128]⟩ : Shape).Idx → EReal)
    (hx : ∀ i, IsReal (x i)) (hW1 : ∀ i, IsReal (W1 i)) (hW2 : ∀ i, IsReal (W2 i)) (hW3 : ∀ i, IsReal (W3 i))
    (hG1 : ∀ i, IsReal (G1 i)) (hG2 : ∀ i, IsReal (G2 i)) (hG3 : ∀ i, IsReal (G3 i)) :
    KG x W1 W2 W3 G1 G2 G3 = RG x W1 W2 W3 G1 G2 G3 :=
  funext fun ij => kval_eq_rval _ _ _ _ _ _ _ (fun _ => hx _) (fun _ _ => hW1 _) (fun _ _ => hW2 _) (fun _ _ => hW3 _)
    (fun _ => hG1 _) (fun _ => hG2 _) (fun _ => hG3 _)

end Cert.Spec

end
-- ==== Proof.Finite.lean ====
/-
  From the claim's precondition to "every entry of every argument array is a real number".

  The precondition is a conjunction, over the seven arrays, of "every entry `x` has `|x| < +∞`". On the extended
  reals `|x| = max x (−x)`, and `max x (−x) < ⊤` excludes `x = ⊤` and `x = ⊥`: what is left is a real number.
-/
import proofs.«153459_g75874892251866_cont_9to1_m_1391_4_alg».proof.Defs
import proofs.«153459_g75874892251866_cont_9to1_m_1391_4_alg».proof.Proof.Gen.Pre_finite_inputs
import proofs.«153459_g75874892251866_cont_9to1_m_1391_4_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.TcCoe Idealize.ShloMosaic.ValueIdx

/-- The word `0x7F800000` denotes `+∞`. -/
theorem ofBits_inf : Ideal.ofBits .f32 0x7F800000#32 = (⊤ : EReal) := by
  simp [Ideal.ofBits, Ideal.ieee]

/-- An extended real whose absolute value is below `+∞` is a real number. -/
theorem isReal_of_abs_lt (x : EReal)
    (h : Ideal.cmp .olt (max x (-x)) (Ideal.ofBits .f32 0x7F800000#32) = 1#1) : Cert.Spec.IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The result shape of a reduction over all axes has one index. -/
instance : Subsingleton Cert.Pre_finite_inputs.S_.Idx := ⟨fun a b => funext fun d => d.elim0⟩

/-- One array's conjunct: if the AND over all entries of `|a| < +∞` is one, every entry of `a` is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf a)
            (broadcastInDim s ![] hb (constant (F := Ideal) Cert.Pre_finite_inputs.S_ .f32 0x7F800000#32)))
          init hr hu ix0 = 1#1) :
    ∀ i, Cert.Spec.IsReal (a i) := fun i =>
  isReal_of_abs_lt (a i) (Host.reduce_andi_all _ init hr hu ix0 h i)

/-- The printed predicate, all ones at the Ideal instance, says every entry of every array is a real number. -/
theorem real_of_fn [hP : Cert.Pre_finite_inputs.Facts]
    (a0 : FVec Ideal Cert.Pre_finite_inputs.S1024x512 .f32) (a1 a2 a3 : FVec Ideal Cert.Pre_finite_inputs.S512x128 .f32)
    (a4 a5 a6 : FVec Ideal Cert.Pre_finite_inputs.S20000x128 .f32)
    (h : Cert.Pre_finite_inputs.fn (F := Ideal) a0 a1 a2 a3 a4 a5 a6 = (fun _ => 1#1)) :
    (∀ i, Cert.Spec.IsReal (a0 i)) ∧ (∀ i, Cert.Spec.IsReal (a1 i)) ∧ (∀ i, Cert.Spec.IsReal (a2 i)) ∧ (∀ i, Cert.Spec.IsReal (a3 i))
      ∧ (∀ i, Cert.Spec.IsReal (a4 i)) ∧ (∀ i, Cert.Spec.IsReal (a5 i)) ∧ (∀ i, Cert.Spec.IsReal (a6 i)) := by
  have h0 := congrFun h ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6⟩

end Cert.Proof.Finite

end
-- ==== Proof.lean ====
/-
  The certificate's claims, assembled.

  * The word-level program's frame: its two pallas_calls run as pipeline regions, the second with its score window
    forgotten (Proof/K/LaunchF.lean).
  * The idealized program's run with the score array named (Proof/KI/Launch.lean) and that array as one function of the
    seven arguments, `Spec.KG` (Proof/KI/KernelValue.lean): its frame is that run with the result dropped.
  * The reference's run with its result as `Spec.RG` (Proof/RefValue.lean, over the generated run and read-at-an-index
    modules): its frame is the generated run with the result dropped.
  * `preserves`: the two named constants denote `16/49` and `1/3` at the Ideal instance.
  * `algebraic`: under the precondition every input entry is a real number (Proof/Finite.lean), and on real inputs
    `Spec.KG = Spec.RG` (Proof/Law.lean): the kernel's `exp(−(y · 16/49)²)` is the reference's `exp(−(√y / 1.75)⁴)`,
    `g · (1/n)` is `g / n`, and a product with `1/3` is a quotient by `3`.
-/
import proofs.«153459_g75874892251866_cont_9to1_m_1391_4_alg».proof.Defs
import proofs.«153459_g75874892251866_cont_9to1_m_1391_4_alg».proof.Proof.Gen.Kernel
import proofs.«153459_g75874892251866_cont_9to1_m_1391_4_alg».proof.Proof.Gen.KernelIdeal
import proofs.«153459_g75874892251866_cont_9to1_m_1391_4_alg».proof.Proof.Gen.ReferenceIdeal
import proofs.«153459_g75874892251866_cont_9to1_m_1391_4_alg».proof.Proof.Gen.Pre_finite_inputs
import proofs.«153459_g75874892251866_cont_9to1_m_1391_4_alg».proof.Proof.Gen.ReferenceIdeal.Run
import proofs.«153459_g75874892251866_cont_9to1_m_1391_4_alg».proof.Proof.Gen.ReferenceIdeal.Read
import proofs.«153459_g75874892251866_cont_9to1_m_1391_4_alg».proof.Proof.K.LaunchF
import proofs.«153459_g75874892251866_cont_9to1_m_1391_4_alg».proof.Proof.KI.Launch
import proofs.«153459_g75874892251866_cont_9to1_m_1391_4_alg».proof.Proof.KI.KernelValue
import proofs.«153459_g75874892251866_cont_9to1_m_1391_4_alg».proof.Proof.RefValue
import proofs.«153459_g75874892251866_cont_9to1_m_1391_4_alg».proof.Proof.Law
import proofs.«153459_g75874892251866_cont_9to1_m_1391_4_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ =>
  (θ_run Cert.KernelIdeal.defs _ _).mono (fun _ h c => (h c).2) (Cert.KernelIdeal.Hand.run_value m ρ)

theorem frame_ri : Cert.frame_ReferenceIdeal := fun m ρ _ =>
  (θ_run Cert.ReferenceIdeal.defs _ _).mono (fun _ h c => (h c).2) (Cert.ReferenceIdeal.Value.run (F := Ideal) m ρ)

/-- The ledger's two entries: the certificate's table gives `"c_16_49"` the value `16/49` and `"inv_3"` the value `1/3`. -/
theorem preserves : Cert.preserves_Kernel_KernelIdeal :=
  ⟨IdealRules.named_const.statement Cert.KernelIdeal.κ "c_16_49" .f32 0x3EA72F05#32 ((16 / 49 : ℝ) : EReal) rfl,
   IdealRules.named_const.statement Cert.KernelIdeal.κ "inv_3" .f32 0x3EAAAAAB#32 ((1 / 3 : ℝ) : EReal) rfl⟩

/-- Both programs end with the score array at one function of the arguments: the kernel's closed form `Spec.KG`, which
    on the real inputs the precondition grants is the reference's `Spec.RG`. -/
theorem algebraic : Cert.algebraic_KernelIdeal_ReferenceIdeal := by
  intro m ρ m' ρ' hpre hagree
  refine ⟨fun c => Cert.Spec.KG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.final_eq m ρ c), (h c).2⟩) (Cert.KernelIdeal.Hand.run_value m ρ)
  · refine (θ_run Cert.ReferenceIdeal.defs _ _).mono (fun _ h c => ⟨(h c).1.trans ?_, (h c).2⟩)
      (Cert.ReferenceIdeal.RefValue.run_RG m' ρ')
    obtain ⟨h0, h1, h2, h3, h4, h5, h6⟩ := Cert.Proof.Finite.real_of_fn _ _ _ _ _ _ _ (hpre c)
    rw [(hagree c).1, (hagree c).2.1, (hagree c).2.2.1, (hagree c).2.2.2.1, (hagree c).2.2.2.2.1, (hagree c).2.2.2.2.2.1,
      (hagree c).2.2.2.2.2.2]
    exact (Cert.Spec.KG_eq_RG _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
